-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S1 : Shape := ⟨1, ![1]⟩
abbrev S260013x1 : Shape := ⟨2, ![260013, 1]⟩
abbrev S64x260013 : Shape := ⟨2, ![64, 260013]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S1 : S_.BroadcastsInDim S1 (![] : Fin 0 → Fin S1.rank)
  reducesTo_S1_S_d0 : S1.ReducesTo [0] S_
  bcast_S_S260013x1 : S_.BroadcastsInDim S260013x1 (![] : Fin 0 → Fin S260013x1.rank)
  reducesTo_S260013x1_S_d0_1 : S260013x1.ReducesTo [0, 1] S_
  bcast_S_S64x260013 : S_.BroadcastsInDim S64x260013 (![] : Fin 0 → Fin S64x260013.rank)
  reducesTo_S64x260013_S_d0_1 : S64x260013.ReducesTo [0, 1] S_
  bcast_S_S16384x26 : S_.BroadcastsInDim S16384x26 (![] : Fin 0 → Fin S16384x26.rank)
  reducesTo_S16384x26_S_d0_1 : S16384x26.ReducesTo [0, 1] S_

variable [Facts]

def fn_part1 {F : FTy → Type} [FloatOps F] (main_arg1 : IVec S16384x26 32) (main_v13 : IVec S_ 1) (main_v16 : IVec S64x260013 1) : IVec S_ 1 :=
  let main_c_5 : IVec S_ 1 := constantI S_ 1 1#1
  let main_v17 : IVec S_ 1 := (fun x v => Host.reduce IntOp.andi x v reducesTo_S64x260013_S_d0_1 h_S_) main_v16 main_c_5
  let main_v18 : IVec S_ 1 := andi main_v13 main_v17
  let main_c_6 : IVec S_ 32 := constantI S_ 32 0#32
  let main_v19 : IVec S16384x26 32 := broadcastInDim S16384x26 ![] bcast_S_S16384x26 main_c_6
  let main_v20 : IVec S16384x26 1 := cmpi .sge main_arg1 main_v19
  let main_c_7 : IVec S_ 1 := constantI S_ 1 1#1
  let main_v21 : IVec S_ 1 := (fun x v => Host.reduce IntOp.andi x v reducesTo_S16384x26_S_d0_1 h_S_) main_v20 main_c_7
  let main_v22 : IVec S_ 1 := andi main_v18 main_v21
  let main_c_8 : IVec S_ 32 := constantI S_ 32 10000#32
  let main_v23 : IVec S16384x26 32 := broadcastInDim S16384x26 ![] bcast_S_S16384x26 main_c_8
  let main_v24 : IVec S16384x26 1 := cmpi .slt main_arg1 main_v23
  let main_c_9 : IVec S_ 1 := constantI S_ 1 1#1
  let main_v25 : IVec S_ 1 := (fun x v => Host.reduce IntOp.andi x v reducesTo_S16384x26_S_d0_1 h_S_) main_v24 main_c_9
  let main_v26 : IVec S_ 1 := andi main_v22 main_v25
  main_v26

def fn {F : FTy → Type} [FloatOps F] (main_arg0 : FVec F S16384x13 .f32) (main_arg1 : IVec S16384x26 32) (main_arg2 : FVec F S1 .f32) (main_arg3 : FVec F S260013x1 .f32) (main_arg4 : FVec F S64x260013 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S260013x1 .f32 := Host.absf main_arg3
  let main_cst_2 : FVec F S_ .f32 := constant S_ .f32 0x7F800000#32
  let main_v10 : FVec F S260013x1 .f32 := broadcastInDim S260013x1 ![] bcast_S_S260013x1 main_cst_2
  let main_v11 : IVec S260013x1 1 := cmpf .olt main_v9 main_v10
  let main_c_3 : IVec S_ 1 := constantI S_ 1 1#1
  let main_v12 : IVec S_ 1 := (fun x v => Host.reduce IntOp.andi x v reducesTo_S260013x1_S_d0_1 h_S_) main_v11 main_c_3
  let main_v13 : IVec S_ 1 := andi main_v8 main_v12
  let main_v14 : FVec F S64x260013 .f32 := Host.absf main_arg4
  let main_cst_4 : FVec F S_ .f32 := constant S_ .f32 0x7F800000#32
  let main_v15 : FVec F S64x260013 .f32 := broadcastInDim S64x260013 ![] bcast_S_S64x260013 main_cst_4
  let main_v16 : IVec S64x260013 1 := cmpf .olt main_v14 main_v15
  fn_part1 (F := F) main_arg1 main_v13 main_v16
-- ==== Kernel.lean ====
abbrev S16384x13 : Shape := ⟨2, ![16384, 13]⟩
abbrev S16384x26 : Shape := ⟨2, ![16384, 26]⟩
abbrev S1 : Shape := ⟨1, ![1]⟩
abbrev S260013x1 : Shape := ⟨2, ![260013, 1]⟩
abbrev S64x260013 : Shape := ⟨2, ![64, 260013]⟩
abbrev S13x1 : Shape := ⟨2, ![13, 1]⟩
abbrev S260000x1 : Shape := ⟨2, ![260000, 1]⟩
abbrev S260000 : Shape := ⟨1, ![260000]⟩
abbrev S26x10000 : Shape := ⟨2, ![26, 10000]⟩
abbrev S64x13 : Shape := ⟨2, ![64, 13]⟩
abbrev S13x64 : Shape := ⟨2, ![13, 64]⟩
abbrev S64x260000 : Shape := ⟨2, ![64, 260000]⟩
abbrev S64x26x10000 : Shape := ⟨3, ![64, 26, 10000]⟩
abbrev S26x10000x64 : Shape := ⟨3, ![26, 10000, 64]⟩
abbrev S26x10000x1 : Shape := ⟨3, ![26, 10000, 1]⟩
abbrev S26x10000x65 : Shape := ⟨3, ![26, 10000, 65]⟩
abbrev S_ : Shape := ⟨0, ![]⟩
abbrev S26x16384 : Shape := ⟨2, ![26, 16384]⟩
abbrev S26x16384x1 : Shape := ⟨3, ![26, 16384, 1]⟩
abbrev S16384x1 : Shape := ⟨2, ![16384, 1]⟩
abbrev S1024x13 : Shape := ⟨2, ![1024, 13]⟩
abbrev S1x1024x1 : Shape := ⟨3, ![1, 1024, 1]⟩
abbrev S1x10000x65 : Shape := ⟨3, ![1, 10000, 65]⟩
abbrev S1024x1 : Shape := ⟨2, ![1024, 1]⟩
abbrev S1024x64 : Shape := ⟨2, ![1024, 64]⟩
abbrev S1x2000 : Shape := ⟨2, ![1, 2000]⟩
abbrev S1024x65 : Shape := ⟨2, ![1024, 65]⟩
abbrev S1024x2000 : Shape := ⟨2, ![1024, 2000]⟩
abbrev S1x2000x65 : Shape := ⟨3, ![1, 2000, 65]⟩
abbrev S2000x65 : Shape := ⟨2, ![2000, 65]⟩
abbrev S1024 : Shape := ⟨1, ![1024]⟩
abbrev S1x1 : Shape := ⟨2, ![1, 1]⟩

abbrev nBuf : Space → Nat
  | .hbm => 39
  | .vmem => 13
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S1, .f32⟩
  | .hbm, ⟨3, _⟩ => ⟨S260013x1, .f32⟩
  | .hbm, ⟨4, _⟩ => ⟨S64x260013, .f32⟩
  | .hbm, ⟨5, _⟩ => ⟨S13x1, .f32⟩
  | .hbm, ⟨6, _⟩ => ⟨S260000x1, .f32⟩
  | .hbm, ⟨7, _⟩ => ⟨S260000, .f32⟩
  | .hbm, ⟨8, _⟩ => ⟨S26x10000, .f32⟩
  | .hbm, ⟨9, _⟩ => ⟨S64x13, .f32⟩
  | .hbm, ⟨10, _⟩ => ⟨S13x64, .f32⟩
  | .hbm, ⟨11, _⟩ => ⟨S64x260000, .f32⟩
  | .hbm, ⟨12, _⟩ => ⟨S64x26x10000, .f32⟩
  | .hbm, ⟨13, _⟩ => ⟨S26x10000x64, .f32⟩
  | .hbm, ⟨14, _⟩ => ⟨S26x10000x1, .f32⟩
  | .hbm, ⟨15, _⟩ => ⟨S26x10000x65, .f32⟩
  | .hbm, ⟨16, _⟩ => ⟨S26x10000x65, .bf16⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S16384x26, .i32⟩
  | .hbm, ⟨21, _⟩ => ⟨S16384x26, .i32⟩
  | .hbm, ⟨22, _⟩ => ⟨S_, .i32⟩
  | .hbm, ⟨23, _⟩ => ⟨S16384x26, .i32⟩
  | .hbm, ⟨24, _⟩ => ⟨S16384x26, .i32⟩
  | .hbm, ⟨25, _⟩ => ⟨S26x16384, .i32⟩
  | .hbm, ⟨26, _⟩ => ⟨S26x16384x1, .i32⟩
  | .hbm, ⟨27, _⟩ => ⟨S16384x1, .f32⟩
  | .hbm, ⟨28, _⟩ => ⟨S1x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .local _ .vmem, ⟨0, _⟩ => ⟨S1024x13, .f32⟩
  | .local _ .vmem, ⟨1, _⟩ => ⟨S1024x13, .f32⟩
  | .local _ .vmem, ⟨2, _⟩ => ⟨S1x1024x1, .i32⟩
  | .local _ .vmem, ⟨3, _⟩ => ⟨S1x1024x1, .i32⟩
  | .local _ .vmem, ⟨4, _⟩ => ⟨S1x10000x65, .bf16⟩
  | .local _ .vmem, ⟨5, _⟩ => ⟨S1x10000x65, .bf16⟩
  | .local _ .vmem, ⟨6, _⟩ => ⟨S13x1, .f32⟩
  | .local _ .vmem, ⟨7, _⟩ => ⟨S13x64, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x64, .f32⟩
  | .local _ .vmem, ⟨12, _⟩ => ⟨S1024x64, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 26], ![false, false]⟩

@[reducible] def k0_t1_loop : Scf.Loop 32 :=
  let c0_i32_3 : BitVec 32 := 0#32
  let c5_i32 : BitVec 32 := 5#32
  let v7 : BitVec 32 := Scalar.addi c0_i32_3 c5_i32
  let c1_i32 : BitVec 32 := 1#32
  ⟨c0_i32_3, v7, c1_i32⟩
def k0_mult1 (k0_t1 : Fin k0_t1_loop.trips) : BitVec 32 :=
  let c0_i32_3 : BitVec 32 := 0#32
  let c1_i32 : BitVec 32 := 1#32
  let arg11 : BitVec 32 := Scf.iv c0_i32_3 c1_i32 k0_t1
  let c2000_i32 : BitVec 32 := 2000#32
  let v30 : BitVec 32 := Scalar.muli arg11 c2000_i32
  v30
def k0_off1 (k0_t1 : Fin k0_t1_loop.trips) : Fin 3 → Nat :=
  let c0_18 : Index := 0#32
  let c0_i32_3 : BitVec 32 := 0#32
  let c1_i32 : BitVec 32 := 1#32
  let arg11 : BitVec 32 := Scf.iv c0_i32_3 c1_i32 k0_t1
  let c2000_i32 : BitVec 32 := 2000#32
  let v30 : BitVec 32 := Scalar.muli arg11 c2000_i32
  let v31 : BitVec 32 := v30
  let v40 : Index := Scalar.indexCast v31
  let c0_19 : Index := 0#32
  ![0, v40.toNat, 0]
def k0_cond2 (i : grid0.Coords) : BitVec 1 :=
  let arg1 : BitVec 32 := BitVec.ofNat 32 (i 1).val
  let c25_i32 : BitVec 32 := 25#32
  let v27 : BitVec 1 := Scalar.cmpi .eq arg1 c25_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10000x65 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S13x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S13x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S260013x1_S13x1_0_0 : S260013x1.Slices ![0, 0] S13x1
  slices_S260013x1_S260000x1_13_0 : S260013x1.Slices ![13, 0] S260000x1
  shapeCasts_S260000x1_S260000 : S260000x1.ShapeCasts S260000
  shapeCasts_S260000_S26x10000 : S260000.ShapeCasts S26x10000
  slices_S64x260013_S64x13_0_0 : S64x260013.Slices ![0, 0] S64x13
  transposes_S64x13_S13x64_1_0 : S64x13.Transposes [1, 0] S13x64
  slices_S64x260013_S64x260000_0_13 : S64x260013.Slices ![0, 13] S64x260000
  shapeCasts_S64x260000_S64x26x10000 : S64x260000.ShapeCasts S64x26x10000
  transposes_S64x26x10000_S26x10000x64_1_2_0 : S64x26x10000.Transposes [1, 2, 0] S26x10000x64
  bcast_S26x10000_S26x10000x1_0_1 : S26x10000.BroadcastsInDim S26x10000x1 (![0, 1] : Fin 2 → Fin S26x10000x1.rank)
  concatenates_S26x10000x64_S26x10000x1_S26x10000x65_d2 : Shape.Concatenates [S26x10000x64, S26x10000x1] S26x10000x65 2
  bitsLt_bf16_f32 : FTy.bits .bf16 < FTy.bits .f32
  bcast_S_S16384x26 : S_.BroadcastsInDim S16384x26 (![] : Fin 0 → Fin S16384x26.rank)
  transposes_S16384x26_S26x16384_1_0 : S16384x26.Transposes [1, 0] S26x16384
  bcast_S26x16384_S26x16384x1_0_1 : S26x16384.BroadcastsInDim S26x16384x1 (![0, 1] : Fin 2 → Fin S26x16384x1.rank)
  inb_S1024x13_S1024x13_0_0 : ∀ a, (![0, 0] : Fin 2 → Nat) a + S1024x13.size a ≤ S1024x13.size a
  h_S1024x13 : 0 < S1024x13.numel
  inb_S13x1_S13x1_0_0 : ∀ a, (![0, 0] : Fin 2 → Nat) a + S13x1.size a ≤ S13x1.size a
  h_S13x1 : 0 < S13x1.numel
  shapeCasts_S13x1_S13x1 : S13x1.ShapeCasts S13x1
  inb_S13x64_S13x64_0_0 : ∀ a, (![0, 0] : Fin 2 → Nat) a + S13x64.size a ≤ S13x64.size a
  h_S13x64 : 0 < S13x64.numel
  shapeCasts_S13x64_S13x64 : S13x64.ShapeCasts S13x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  iota_S1x2000_d1_w32 : S1x2000.Iotas .tc 32 [1]
  broadcasts_S1x2000_S1024x2000 : S1x2000.Broadcasts S1024x2000
  broadcasts_S1024x1_S1024x2000 : S1024x1.Broadcasts S1024x2000
  natLt_1_32 : 1 < 32
  h_S1x2000x65 : 0 < S1x2000x65.numel
  shapeCasts_S1x2000x65_S2000x65 : S1x2000x65.ShapeCasts S2000x65
  slices_S1024x65_o0_0_S1024x64 : S1024x65.Slices ![0, 0] S1024x64
  slices_S1024x65_o0_64_S1024x1 : S1024x65.Slices ![0, 64] S1024x1
  reduces_S1024x64_S1024 : S1024x64.Reduces [1] S1024
  shapeCasts_S1024_S1024x1 : S1024.ShapeCasts S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S1024x13_S13x1_S1024x1_1_0_0_1_n_n_wf : DotDims.WF S1024x13 S13x1 S1024x1 [1] [0] [0] [1] [] []
  dot_S1024x13_S13x64_S1024x64_1_0_0_1_n_n_wf : DotDims.WF S1024x13 S13x64 S1024x64 [1] [0] [0] [1] [] []
  dot_S1024x2000_S2000x65_S1024x65_1_0_0_1_n_n_wf : DotDims.WF S1024x2000 S2000x65 S1024x65 [1] [0] [0] [1] [] []
  hrank0 : 0 < grid0.rank
  k0_t1_ok : k0_t1_loop.OK
  k0_mult1_dvd : ∀ k0_t1 : Fin k0_t1_loop.trips, 16 ∣ (k0_mult1 k0_t1).toNat
  k0_off1_inb : ∀ k0_t1 : Fin k0_t1_loop.trips, ∀ a, (k0_off1 k0_t1) a + S1x2000x65.size a ≤ S1x10000x65.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x13.size a ≤ S16384x13.size a
  hwx0_0 : ∀ i : grid0.Coords, EltTy.bits .f32 = 32 ∨ (Rect.block (s := S16384x13) S1024x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S26x16384x1.size a
  hwx0_1 : ∀ i : grid0.Coords, EltTy.bits .i32 = 32 ∨ (Rect.block (s := S26x16384x1) S1x1024x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10000x65.size a ≤ S26x10000x65.size a
  hwx0_2 : ∀ i : grid0.Coords, EltTy.bits .bf16 = 32 ∨ (Rect.block (s := S26x10000x65) S1x10000x65.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x1.size a ≤ S13x1.size a
  hwx0_3 : ∀ i : grid0.Coords, EltTy.bits .f32 = 32 ∨ (Rect.block (s := S13x1) S13x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S13x64.size a ≤ S13x64.size a
  hwx0_4 : ∀ i : grid0.Coords, EltTy.bits .f32 = 32 ∨ (Rect.block (s := S13x64) S13x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S16384x1.size a
  hwx0_5 : ∀ i : grid0.Coords, EltTy.bits .f32 = 32 ∨ (Rect.block (s := S16384x1) S1024x1.size (cc0_transform_5 i) (hinb0_5 i)).WholeWords (EltTy.packing .f32)

variable [Facts₀]

def dot_S1024x13_S13x1_S1024x1_1_0_0_1_n_n : DotDims S1024x13 S13x1 S1024x1 where
  lhsContracting := [1]
  rhsContracting := [0]
  lhsNonContracting := [0]
  rhsNonContracting := [1]
  lhsBatch := []
  rhsBatch := []
  wf := dot_S1024x13_S13x1_S1024x1_1_0_0_1_n_n_wf
def dot_S1024x13_S13x64_S1024x64_1_0_0_1_n_n : DotDims S1024x13 S13x64 S1024x64 where
  lhsContracting := [1]
  rhsContracting := [0]
  lhsNonContracting := [0]
  rhsNonContracting := [1]
  lhsBatch := []
  rhsBatch := []
  wf := dot_S1024x13_S13x64_S1024x64_1_0_0_1_n_n_wf
def dot_S1024x2000_S2000x65_S1024x65_1_0_0_1_n_n : DotDims S1024x2000 S2000x65 S1024x65 where
  lhsContracting := [1]
  rhsContracting := [0]
  lhsNonContracting := [0]
  rhsNonContracting := [1]
  lhsBatch := []
  rhsBatch := []
  wf := dot_S1024x2000_S2000x65_S1024x65_1_0_0_1_n_n_wf

abbrev win0_0 : Pipeline.Window sig grid0 :=
  Pipeline.Window.ofSpec (Memref.whole main_arg0) S1024x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x10000x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S13x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S13x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x13 : Shape := ⟨2, ![16384, 13]⟩
abbrev S16384x26 : Shape := ⟨2, ![16384, 26]⟩
abbrev S1 : Shape := ⟨1, ![1]⟩
abbrev S260013x1 : Shape := ⟨2, ![260013, 1]⟩
abbrev S64x260013 : Shape := ⟨2, ![64, 260013]⟩
abbrev S26 : Shape := ⟨1, ![26]⟩
abbrev S_ : Shape := ⟨0, ![]⟩
abbrev S1x26 : Shape := ⟨2, ![1, 26]⟩
abbrev S13x1 : Shape := ⟨2, ![13, 1]⟩
abbrev S16384x1 : Shape := ⟨2, ![16384, 1]⟩
abbrev S1x1 : Shape := ⟨2, ![1, 1]⟩
abbrev S16384x26x1 : Shape := ⟨3, ![16384, 26, 1]⟩
abbrev S16384x26x2 : Shape := ⟨3, ![16384, 26, 2]⟩
abbrev S16384 : Shape := ⟨1, ![16384]⟩
abbrev S260013x64 : Shape := ⟨2, ![260013, 64]⟩
abbrev S16384x26x64 : Shape := ⟨3, ![16384, 26, 64]⟩
abbrev S13x64 : Shape := ⟨2, ![13, 64]⟩
abbrev S16384x64 : Shape := ⟨2, ![16384, 64]⟩

abbrev nBuf : Space → Nat
  | .hbm => 78
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S1, .f32⟩
  | .hbm, ⟨3, _⟩ => ⟨S260013x1, .f32⟩
  | .hbm, ⟨4, _⟩ => ⟨S64x260013, .f32⟩
  | .hbm, ⟨5, _⟩ => ⟨S26, .i32⟩
  | .hbm, ⟨6, _⟩ => ⟨S_, .i32⟩
  | .hbm, ⟨7, _⟩ => ⟨S26, .i32⟩
  | .hbm, ⟨8, _⟩ => ⟨S26, .i32⟩
  | .hbm, ⟨9, _⟩ => ⟨S_, .i32⟩
  | .hbm, ⟨10, _⟩ => ⟨S26, .i32⟩
  | .hbm, ⟨11, _⟩ => ⟨S26, .i32⟩
  | .hbm, ⟨12, _⟩ => ⟨S1x26, .i32⟩
  | .hbm, ⟨13, _⟩ => ⟨S16384x26, .i32⟩
  | .hbm, ⟨14, _⟩ => ⟨S16384x26, .i32⟩
  | .hbm, ⟨15, _⟩ => ⟨S13x1, .f32⟩
  | .hbm, ⟨16, _⟩ => ⟨S16384x1, .f32⟩
  | .hbm, ⟨17, _⟩ => ⟨S1x1, .f32⟩
  | .hbm, ⟨18, _⟩ => ⟨S16384x1, .f32⟩
  | .hbm, ⟨19, _⟩ => ⟨S16384x1, .f32⟩
  | .hbm, ⟨20, _⟩ => ⟨S_, .i32⟩
  | .hbm, ⟨21, _⟩ => ⟨S16384x26, .i32⟩
  | .hbm, ⟨22, _⟩ => ⟨S16384x26, .i1⟩
  | .hbm, ⟨23, _⟩ => ⟨S_, .i32⟩
  | .hbm, ⟨24, _⟩ => ⟨S16384x26, .i32⟩
  | .hbm, ⟨25, _⟩ => ⟨S16384x26, .i32⟩
  | .hbm, ⟨26, _⟩ => ⟨S16384x26, .i32⟩
  | .hbm, ⟨27, _⟩ => ⟨S_, .i32⟩
  | .hbm, ⟨28, _⟩ => ⟨S16384x26, .i32⟩
  | .hbm, ⟨29, _⟩ => ⟨S16384x26, .i32⟩
  | .hbm, ⟨30, _⟩ => ⟨S16384x26x1, .i32⟩
  | .hbm, ⟨31, _⟩ => ⟨S16384x26x1, .i32⟩
  | .hbm, ⟨32, _⟩ => ⟨S16384x26x2, .i32⟩
  | .hbm, ⟨33, _⟩ => ⟨S16384x26, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S260013x64, .f32⟩
  | .hbm, ⟨39, _⟩ => ⟨S_, .i32⟩
  | .hbm, ⟨40, _⟩ => ⟨S16384x26, .i32⟩
  | .hbm, ⟨41, _⟩ => ⟨S16384x26, .i1⟩
  | .hbm, ⟨42, _⟩ => ⟨S_, .i32⟩
  | .hbm, ⟨43, _⟩ => ⟨S16384x26, .i32⟩
  | .hbm, ⟨44, _⟩ => ⟨S16384x26, .i32⟩
  | .hbm, ⟨45, _⟩ => ⟨S16384x26, .i32⟩
  | .hbm, ⟨46, _⟩ => ⟨S16384x26x1, .i32⟩
  | .hbm, ⟨47, _⟩ => ⟨S16384x26x64, .f32⟩
  | .hbm, ⟨48, _⟩ => ⟨S13x64, .f32⟩
  | .hbm, ⟨49, _⟩ => ⟨S16384x64, .f32⟩
  | .hbm, ⟨50, _⟩ => ⟨S_, .f32⟩
  | .hbm, ⟨51, _⟩ => ⟨S16384x64, .f32⟩
  | .hbm, ⟨52, _⟩ => ⟨S16384x64, .f32⟩
  | .hbm, ⟨53, _⟩ => ⟨S16384x13, .f32⟩
  | .hbm, ⟨54, _⟩ => ⟨S13x64, .f32⟩
  | .hbm, ⟨55, _⟩ => ⟨S13x64, .f32⟩
  | .hbm, ⟨56, _⟩ => ⟨S16384x64, .f32⟩
  | .hbm, ⟨57, _⟩ => ⟨S16384x26x64, .f32⟩
  | .hbm, ⟨58, _⟩ => ⟨S_, .f32⟩
  | .hbm, ⟨59, _⟩ => ⟨S16384x64, .f32⟩
  | .hbm, ⟨60, _⟩ => ⟨S16384x64, .f32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  bcast_S_S26 : S_.BroadcastsInDim S26 (![] : Fin 0 → Fin S26.rank)
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  slices_S260013x1_S13x1_0_0 : S260013x1.Slices ![0, 0] S13x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  reducesTo_S16384x26_S16384_d1 : S16384x26.ReducesTo [1] S16384
  h_S_ : 0 < S_.numel
  bcast_S16384_S16384x1_0 : S16384.BroadcastsInDim S16384x1 (![0] : Fin 1 → Fin S16384x1.rank)
  transposes_S64x260013_S260013x64_1_0 : S64x260013.Transposes [1, 0] S260013x64
  slices_S260013x64_S13x64_0_0 : S260013x64.Slices ![0, 0] S13x64
  reducesTo_S16384x26x64_S16384x64_d1 : S16384x26x64.ReducesTo [1] S16384x64
  reducesTo_S16384x64_S16384_d1 : S16384x64.ReducesTo [1] S16384
  bcast_S_S16384x1 : S_.BroadcastsInDim S16384x1 (![] : Fin 0 → Fin S16384x1.rank)
  dot_S16384x13_S13x1_S16384x1_1_0_0_1_n_n_wf : DotDims.WF S16384x13 S13x1 S16384x1 [1] [0] [0] [1] [] []
  gather_S260013x1_S16384x26x2_S16384x26_n_01_n_n_01_2_11_wf : GatherDims.WF S260013x1 S16384x26x2 S16384x26 [] [0, 1] [] [0, 1] [] 2 ![1, 1]
  gather_S260013x64_S16384x26x1_S16384x26x64_2_0_n_n_0_2_164_wf : GatherDims.WF S260013x64 S16384x26x1 S16384x26x64 [2] [0] [] [0] [] 2 ![1, 64]
  dot_S16384x13_S13x64_S16384x64_1_0_0_1_n_n_wf : DotDims.WF S16384x13 S13x64 S16384x64 [1] [0] [0] [1] [] []

variable [Facts₀]

def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def gather_S260013x1_S16384x26x2_S16384x26_n_01_n_n_01_2_11 : GatherDims S260013x1 S16384x26x2 S16384x26 where
  offsetDims := []
  collapsedSliceDims := [0, 1]
  operandBatchingDims := []
  startIndicesBatchingDims := []
  startIndexMap := [0, 1]
  indexVectorDim := 2
  sliceSizes := ![1, 1]
  wf := gather_S260013x1_S16384x26x2_S16384x26_n_01_n_n_01_2_11_wf
def gather_S260013x64_S16384x26x1_S16384x26x64_2_0_n_n_0_2_164 : GatherDims S260013x64 S16384x26x1 S16384x26x64 where
  offsetDims := [2]
  collapsedSliceDims := [0]
  operandBatchingDims := []
  startIndicesBatchingDims := []
  startIndexMap := [0]
  indexVectorDim := 2
  sliceSizes := ![1, 64]
  wf := gather_S260013x64_S16384x26x1_S16384x26x64_2_0_n_n_0_2_164_wf
def dot_S16384x13_S13x64_S16384x64_1_0_0_1_n_n : DotDims S16384x13 S13x64 S16384x64 where
  lhsContracting := [1]
  rhsContracting := [0]
  lhsNonContracting := [0]
  rhsNonContracting := [1]
  lhsBatch := []
  rhsBatch := []
  wf := dot_S16384x13_S13x64_S16384x64_1_0_0_1_n_n_wf

class Facts : Prop extends Facts₀ where

variable [Facts]
-- ==== Proof.Spec.lean ====
/-
  The mathematics of the factorization-machine logit, stated once over plain index functions.

  A sample has 13 dense features and 26 categorical fields; category `s` of field `j` selects global column
  `13 + 10000 * j + s` of the weight vector `w` and of the embedding matrix `V`.  With `x` the stacked feature
  vector (the dense part, then one one-hot block per field) the logit is
  `x·w + 1/2 * ∑ₖ ((x·Vₖ)² - x²·Vₖ²)`, a one-hot block contributing exactly its selected column, and the result is
  the logistic function of the logit plus the bias.
-/
import Idealize.ShloMosaic.PureOps.Ideal
import Idealize.ShloMosaic.PureOps.Ideal.Laws
import Idealize.ShloMosaic.Lib.ValueIdx

noncomputable section

namespace Cert.FM

open Idealize.ShloMosaic Idealize.ShloMosaic.ValueIdx

abbrev SD : Shape := ⟨2, ![16384, 13]⟩
abbrev SS : Shape := ⟨2, ![16384, 26]⟩
abbrev SB : Shape := ⟨1, ![1]⟩
abbrev SW : Shape := ⟨2, ![260013, 1]⟩
abbrev SV : Shape := ⟨2, ![64, 260013]⟩
abbrev SO : Shape := ⟨2, ![16384, 1]⟩

/-- Column `13 + 10000 * j + q` of the table: entry `q` of field `j`. -/
def tcol (j : Fin 26) (q : Fin 10000) : Fin 260013 := ⟨13 + 10000 * j.val + q.val, by have := j.isLt; have := q.isLt; omega⟩

/-- Dense feature `a` is column `a`. -/
def dcol (a : Fin 13) : Fin 260013 := ⟨a.val, by have := a.isLt; omega⟩

/-- The global column that category `s` of field `j` selects, kept inside the table by a remainder that is the
    identity on every category in range. -/
def col (s : BitVec 32) (j : Fin 26) : Fin 260013 :=
  ⟨(13 + 10000 * j.val + s.toNat) % 260013, Nat.mod_lt _ (by decide)⟩

theorem col_eq_tcol (s : BitVec 32) (j : Fin 26) (h : s.toNat < 10000) : col s j = tcol j ⟨s.toNat, h⟩ := by
  have := j.isLt
  apply Fin.ext
  show (13 + 10000 * j.val + s.toNat) % 260013 = 13 + 10000 * j.val + s.toNat
  exact Nat.mod_eq_of_lt (by omega)

/-- Row `1024 * q + r` of the batch: row `r` of batch tile `q` (a remainder keeps it in range for every `q`). -/
def row (q : ℕ) (r : Fin 1024) : Fin 16384 := ⟨(1024 * q + r.val) % 16384, Nat.mod_lt _ (by decide)⟩

theorem row_val (q : ℕ) (r : Fin 1024) (hq : q < 16) : (row q r).val = 1024 * q + r.val := by
  have := r.isLt
  show (1024 * q + r.val) % 16384 = _
  exact Nat.mod_eq_of_lt (by omega)

/-- The field a grid point works on: the point's position modulo 26. -/
def fld (n : ℕ) : Fin 26 := ⟨n % 26, Nat.mod_lt _ (by decide)⟩

section
variable (d : SD.Idx → EReal) (s : SS.Idx → BitVec 32) (w0 : SB.Idx → EReal) (w : SW.Idx → EReal) (Vm : SV.Idx → EReal)

/-- Every category is a category: `0 ≤ s < 10000`, read signed. -/
def InRange : Prop := ∀ (b : Fin 16384) (j : Fin 26), 0 ≤ (s (ix2 b j)).toInt ∧ (s (ix2 b j)).toInt < 10000

/-- Field `j`'s first-order weight for sample `b`. -/
def Tw (b : Fin 16384) (j : Fin 26) : EReal := w (ix2 (col (s (ix2 b j)) j) (0 : Fin 1))
/-- Field `j`'s embedding coordinate `k` for sample `b`. -/
def TV (b : Fin 16384) (j : Fin 26) (k : Fin 64) : EReal := Vm (ix2 k (col (s (ix2 b j)) j))
/-- The same with the field a natural number (zero past the last field), for partial sums over the first fields. -/
def TwN (b : Fin 16384) (j : ℕ) : EReal := if h : j < 26 then Tw s w b ⟨j, h⟩ else 0
def TVN (b : Fin 16384) (k : Fin 64) (j : ℕ) : EReal := if h : j < 26 then TV s Vm b ⟨j, h⟩ k else 0

/-- The dense part of `x·w`, of `x·Vₖ` and of `x²·Vₖ²`. -/
def Dw (b : Fin 16384) : EReal := ∑ a : Fin 13, d (ix2 b a) * w (ix2 (dcol a) (0 : Fin 1))
def DV (b : Fin 16384) (k : Fin 64) : EReal := ∑ a : Fin 13, d (ix2 b a) * Vm (ix2 k (dcol a))
def DV2 (b : Fin 16384) (k : Fin 64) : EReal :=
  ∑ a : Fin 13, (d (ix2 b a) * d (ix2 b a)) * (Vm (ix2 k (dcol a)) * Vm (ix2 k (dcol a)))

def first (b : Fin 16384) : EReal := Dw d w b + ∑ j : Fin 26, Tw s w b j
def vx (b : Fin 16384) (k : Fin 64) : EReal := DV d Vm b k + ∑ j : Fin 26, TV s Vm b j k
def v2 (b : Fin 16384) (k : Fin 64) : EReal := DV2 d Vm b k + ∑ j : Fin 26, TV s Vm b j k * TV s Vm b j k

/-- One half, as the programs spell it. -/
def half : EReal := Ideal.ofBits .f32 0x3F000000#32
/-- One, as the programs spell it. -/
def one : EReal := Ideal.ofBits .f32 0x3F800000#32

def logit (b : Fin 16384) : EReal :=
  first d s w b + half * ∑ k : Fin 64, (vx d s Vm b k * vx d s Vm b k - v2 d s Vm b k)

/-- The logistic function as both programs compute it: `1 / (1 + exp (-x))`. -/
def sg (x : EReal) : EReal := Ideal.div one (one + Ideal.exp (-x))

/-- The result: the logistic function of the logit plus the bias, one entry per sample. -/
def out : SO.Idx → EReal := fun i => sg (logit d s w Vm (i 0) + w0 (ix1 (0 : Fin 1)))

/-- The same sum in the order a host program adds it: the bias first, each reduction started from a zero. -/
def refz (b : Fin 16384) : EReal :=
  ((w0 (ix1 (0 : Fin 1)) + Dw d w b) + (Ideal.ofBits .f32 0x00000000#32 + ∑ j : Fin 26, Tw s w b j))
    + half * (Ideal.ofBits .f32 0x00000000#32 + ∑ k : Fin 64,
        ((DV d Vm b k + (Ideal.ofBits .f32 0x00000000#32 + ∑ j : Fin 26, TV s Vm b j k))
          * (DV d Vm b k + (Ideal.ofBits .f32 0x00000000#32 + ∑ j : Fin 26, TV s Vm b j k))
          - (DV2 d Vm b k + (Ideal.ofBits .f32 0x00000000#32 + ∑ j : Fin 26, TV s Vm b j k * TV s Vm b j k))))

/-- Addition of extended reals is commutative and associative and the float zero is `0`: the two orders agree. -/
theorem refz_eq (b : Fin 16384) : refz d s w0 w Vm b = logit d s w Vm b + w0 (ix1 (0 : Fin 1)) := by
  unfold refz logit first vx v2
  simp only [Ideal.ofBits_zero_f32, zero_add]
  ac_rfl

/-- A partial sum over all 26 fields is the sum over the fields. -/
theorem sum_TwN (b : Fin 16384) : ∑ j ∈ Finset.range 26, TwN s w b j = ∑ j : Fin 26, Tw s w b j := by
  rw [Finset.sum_range]
  exact Finset.sum_congr rfl fun j _ => by unfold TwN; rw [dif_pos j.isLt]
theorem sum_TVN (b : Fin 16384) (k : Fin 64) : ∑ j ∈ Finset.range 26, TVN s Vm b k j = ∑ j : Fin 26, TV s Vm b j k := by
  rw [Finset.sum_range]
  exact Finset.sum_congr rfl fun j _ => by unfold TVN; rw [dif_pos j.isLt]
theorem sum_TVN_sq (b : Fin 16384) (k : Fin 64) :
    ∑ j ∈ Finset.range 26, TVN s Vm b k j * TVN s Vm b k j = ∑ j : Fin 26, TV s Vm b j k * TV s Vm b j k := by
  rw [Finset.sum_range]
  exact Finset.sum_congr rfl fun j _ => by unfold TVN; rw [dif_pos j.isLt]

end

end Cert.FM

end
-- ==== Proof.LoopDef.lean ====
/-
  The one-hot product, chunk by chunk.  A grid point's table block has 10000 rows; the kernel walks it in five
  chunks of 2000 rows, and in each adds to a running [1024, 65] value the product of the chunk with the mask
  "row index equals the sample's category less the chunk's first row".  Here the chunk a trip loads and the running
  value before each trip are named as plain functions of the point's index block and table block.
-/
import proofs.«402704_j29437705847531_3_alg».proof.Proof.Gen.KernelIdeal.Skeleton
import Idealize.ShloMosaic.Lib.Pipeline.FrameBody

noncomputable section

namespace Cert.KernelIdeal.FMV

open Cert.KernelIdeal Cert.KernelIdeal.Gen Idealize.ShloMosaic

variable {F : FTy → Type} [FloatOps F]

/-- Rows `2000 k … 2000 k + 1999` of the table block: what trip `k` loads. -/
def chunk (x2 : Vec F S1x10000x65 .bf16) (k : Fin k0_t1_loop.trips) : Vec F S1x2000x65 .bf16 :=
  View.ld x2 (Rect.unit (s := S1x10000x65) (k0_off1 k) S1x2000x65.size (Gen.k0_off1_inb k))

/-- The running value before trip `n`: zero, then one chunk's masked product added per trip. -/
def lf (x1 : Vec F S1x1024x1 .i32) (x2 : Vec F S1x10000x65 .bf16) : ℕ → FVec F S1024x65 .f32
  | 0 => k0_pay6
  | n + 1 => if h : n < k0_t1_loop.trips then k0_pay7 x1 ⟨n, h⟩ (lf x1 x2 n) (chunk x2 ⟨n, h⟩) else lf x1 x2 n

theorem lf_zero (x1 : Vec F S1x1024x1 .i32) (x2 : Vec F S1x10000x65 .bf16) : lf x1 x2 0 = k0_pay6 := rfl

theorem lf_succ (x1 : Vec F S1x1024x1 .i32) (x2 : Vec F S1x10000x65 .bf16) (k : Fin k0_t1_loop.trips) :
    lf x1 x2 (k.val + 1) = k0_pay7 x1 k (lf x1 x2 k.val) (chunk x2 k) := by
  rw [lf]; exact dif_pos k.isLt

/-- The loop makes five trips. -/
theorem trips_eq : k0_t1_loop.trips = 5 := by decide

end Cert.KernelIdeal.FMV

end
-- ==== Proof.Pieces.lean ====
/-
  What one grid point leaves behind, as values.  Each case of the body ends with its three running sums stored whole
  (and, at a tile's last field, the output block): the stored value is the payload of the last store, whose loads read
  the whole buffers — the point's input blocks, and the sums as the point before left them, or, at a tile's first
  field, the dense products the same point has just stored.  The loop's carried value is the running one-hot product.
-/
import proofs.«402704_j29437705847531_3_alg».proof.Proof.Gen.KernelIdeal.Frame
import proofs.«402704_j29437705847531_3_alg».proof.Proof.LoopDef
import Idealize.ShloMosaic.Lib.Pipeline.Value
import Idealize.ShloMosaic.Lib.Tactic

set_option maxRecDepth 16384

noncomputable section

namespace Cert.KernelIdeal.FMV

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- One trip adds one chunk's masked product: the trip's found result, opened here once. -/
theorem tripR_eq (𝒱 : Variants) (c : Dev nD) (bd : Option 𝒱.V) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (v3 : Vec F S1x1024x1 .i32)
    (X : BufTy.Contents (Elt F) arg4.view.ty) (k : Fin k0_t1_loop.trips) (acc : FVec F S1024x65 .f32) :
    tripR_k0_t1 (F := F) 𝒱 c bd i arg2 harg2 arg3 harg3 arg4 harg4 arg5 harg5 arg6 harg6 arg7 harg7 arg8 harg8 arg9 harg9 arg10 harg10 v3 X k acc = k0_pay7 v3 k acc (chunk (arg4.view.read (Elt F) X) k) := by
  unfold tripR_k0_t1 trip_k0_t1
  rfl

/-- So the carried value before trip `n` is the running product over the table block's contents. -/
theorem st_eq (𝒱 : Variants) (c : Dev nD) (bd : Option 𝒱.V) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (v3 : Vec F S1x1024x1 .i32)
    (X : BufTy.Contents (Elt F) arg4.view.ty) (n : ℕ) :
    st_k0_t1 (F := F) 𝒱 c bd i arg2 harg2 arg3 harg3 arg4 harg4 arg5 harg5 arg6 harg6 arg7 harg7 arg8 harg8 arg9 harg9 arg10 harg10 v3 X k0_pay6 n = lf v3 (arg4.view.read (Elt F) X) n := by
  induction n with
  | zero => rfl
  | succ n ih =>
    rw [st_k0_t1.eq_2]; unfold st_k0_t1Step
    rw [lf]
    by_cases h : n < k0_t1_loop.trips
    · rw [dif_pos h, dif_pos h, tripR_eq, ih]
    · rw [dif_neg h, dif_neg h, ih]

theorem sout_A_0 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : cond0_0 i) (hc1 : ¬cond0_1 i) (x0 : Vec F S1024x13 .f32) (x1 : Vec F S1x1024x1 .i32) (x2 : Vec F S1x10000x65 .bf16) (x3 : Vec F S13x1 .f32) (x4 : Vec F S13x64 .f32) :
    sout0_A_0 c i arg2 harg2 arg3 harg3 arg4 harg4 arg5 harg5 arg6 harg6 arg7 harg7 arg8 harg8 arg9 harg9 arg10 harg10 hc0 hc1 x0 x1 x2 x3 x4 = k0_pay9 (lf x1 x2 k0_t1_loop.trips) (k0_pay3 x0 x3) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_A_1 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : cond0_0 i) (hc1 : ¬cond0_1 i) (x0 : Vec F S1024x13 .f32) (x1 : Vec F S1x1024x1 .i32) (x2 : Vec F S1x10000x65 .bf16) (x3 : Vec F S13x1 .f32) (x4 : Vec F S13x64 .f32) :
    sout0_A_1 c i arg2 harg2 arg3 harg3 arg4 harg4 arg5 harg5 arg6 harg6 arg7 harg7 arg8 harg8 arg9 harg9 arg10 harg10 hc0 hc1 x0 x1 x2 x3 x4 = k0_pay10 (lf x1 x2 k0_t1_loop.trips) (k0_pay4 x0 x4) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x64) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_A_2 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : cond0_0 i) (hc1 : ¬cond0_1 i) (x0 : Vec F S1024x13 .f32) (x1 : Vec F S1x1024x1 .i32) (x2 : Vec F S1x10000x65 .bf16) (x3 : Vec F S13x1 .f32) (x4 : Vec F S13x64 .f32) :
    sout0_A_2 c i arg2 harg2 arg3 harg3 arg4 harg4 arg5 harg5 arg6 harg6 arg7 harg7 arg8 harg8 arg9 harg9 arg10 harg10 hc0 hc1 x0 x1 x2 x3 x4 = k0_pay11 (lf x1 x2 k0_t1_loop.trips) (k0_pay5 x0 x4) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x64) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_B_0 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : ¬cond0_1 i) (x0 : Vec F S1024x13 .f32) (x1 : Vec F S1x1024x1 .i32) (x2 : Vec F S1x10000x65 .bf16) (x3 : Vec F S13x1 .f32) (x4 : Vec F S13x64 .f32) (xs0 : Vec F S1024x1 .f32) (xs1 : Vec F S1024x64 .f32) (xs2 : Vec F S1024x64 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = k0_pay9 (lf x1 x2 k0_t1_loop.trips) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S1024x1) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_B_1 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : ¬cond0_1 i) (x0 : Vec F S1024x13 .f32) (x1 : Vec F S1x1024x1 .i32) (x2 : Vec F S1x10000x65 .bf16) (x3 : Vec F S13x1 .f32) (x4 : Vec F S13x64 .f32) (xs0 : Vec F S1024x1 .f32) (xs1 : Vec F S1024x64 .f32) (xs2 : Vec F S1024x64 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = k0_pay10 (lf x1 x2 k0_t1_loop.trips) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S1024x64) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_B_2 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : ¬cond0_1 i) (x0 : Vec F S1024x13 .f32) (x1 : Vec F S1x1024x1 .i32) (x2 : Vec F S1x10000x65 .bf16) (x3 : Vec F S13x1 .f32) (x4 : Vec F S13x64 .f32) (xs0 : Vec F S1024x1 .f32) (xs1 : Vec F S1024x64 .f32) (xs2 : Vec F S1024x64 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = k0_pay11 (lf x1 x2 k0_t1_loop.trips) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S1024x64) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_C_0 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : cond0_1 i) (x0 : Vec F S1024x13 .f32) (x1 : Vec F S1x1024x1 .i32) (x2 : Vec F S1x10000x65 .bf16) (x3 : Vec F S13x1 .f32) (x4 : Vec F S13x64 .f32) (xs0 : Vec F S1024x1 .f32) (xs1 : Vec F S1024x64 .f32) (xs2 : Vec F S1024x64 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = k0_pay9 (lf x1 x2 k0_t1_loop.trips) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1024x1) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_C_1 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : cond0_1 i) (x0 : Vec F S1024x13 .f32) (x1 : Vec F S1x1024x1 .i32) (x2 : Vec F S1x10000x65 .bf16) (x3 : Vec F S13x1 .f32) (x4 : Vec F S13x64 .f32) (xs0 : Vec F S1024x1 .f32) (xs1 : Vec F S1024x64 .f32) (xs2 : Vec F S1024x64 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = k0_pay10 (lf x1 x2 k0_t1_loop.trips) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1024x64) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem sout_C_2 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : cond0_1 i) (x0 : Vec F S1024x13 .f32) (x1 : Vec F S1x1024x1 .i32) (x2 : Vec F S1x10000x65 .bf16) (x3 : Vec F S13x1 .f32) (x4 : Vec F S13x64 .f32) (xs0 : Vec F S1024x1 .f32) (xs1 : Vec F S1024x64 .f32) (xs2 : Vec F S1024x64 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = k0_pay11 (lf x1 x2 k0_t1_loop.trips) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1024x64) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

theorem out_C_5 (c : Dev nD) (i : grid0.Coords) (arg2 : Memref sig .tc .vmem S1024x13 .f32) (harg2 : arg2.IsWhole) (arg3 : Memref sig .tc .vmem S1x1024x1 .i32) (harg3 : arg3.IsWhole) (arg4 : Memref sig .tc .vmem S1x10000x65 .bf16) (harg4 : arg4.IsWhole) (arg5 : Memref sig .tc .vmem S13x1 .f32) (harg5 : arg5.IsWhole) (arg6 : Memref sig .tc .vmem S13x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (arg10 : Memref sig .tc .vmem S1024x64 .f32) (harg10 : arg10.IsWhole) (hc0 : ¬cond0_0 i) (hc1 : cond0_1 i) (x0 : Vec F S1024x13 .f32) (x1 : Vec F S1x1024x1 .i32) (x2 : Vec F S1x10000x65 .bf16) (x3 : Vec F S13x1 .f32) (x4 : Vec F S13x64 .f32) (xs0 : Vec F S1024x1 .f32) (xs1 : Vec F S1024x64 .f32) (xs2 : Vec F S1024x64 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay1 (k0_pay10 (lf x1 x2 k0_t1_loop.trips) xs1) (k0_pay11 (lf x1 x2 k0_t1_loop.trips) xs2) (k0_pay9 (lf x1 x2 k0_t1_loop.trips) xs0) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1024x1) hz2]
  simp only [View.readAt_eq_ld, harg2.read_unread, harg3.read_unread, harg4.read_unread, harg5.read_unread, harg6.read_unread,
    harg8.read_unread, harg9.read_unread, harg10.read_unread, View.ld_unit_zero (S := S1024x13) hz2, View.ld_unit_zero (S := S1x1024x1) hz3,
    View.ld_unit_zero (S := S13x1) hz2, View.ld_unit_zero (S := S13x64) hz2, View.ld_unit_zero (S := S1024x1) hz2,
    View.ld_unit_zero (S := S1024x64) hz2, View.readCov_unit_zero (S := S1024x1) _ hz2, View.readCov_unit_zero (S := S1024x64) _ hz2, st_eq]

end Cert.KernelIdeal.FMV

end
-- ==== Proof.OneHot.lean ====
/-
  A one-hot row times a table is the table's selected row.  Over the five chunks the mask "row index equals the
  category less the chunk's first row" is one at exactly one row of exactly one chunk when the category lies in
  `0 … 9999`, and zero elsewhere; a product with zero is zero and with one is the factor, so the running value after
  the five trips is the table block's row at the category.
-/
import proofs.«402704_j29437705847531_3_alg».proof.Proof.LoopDef
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.FMV

open Cert.KernelIdeal Cert.KernelIdeal.Gen Idealize.ShloMosaic Idealize.ShloMosaic.ValueIdx

/-! ## The product at an index: a sum over the chunk's 2000 rows -/

/-- The left operand is read at the output's row … -/
theorem oneHot_lhs_0 (i : S1024x65.Idx) (q : dot_S1024x2000_S2000x65_S1024x65_1_0_0_1_n_n.contr.Idx) :
    (dot_S1024x2000_S2000x65_S1024x65_1_0_0_1_n_n.lhsIdx i q 0).val = (i 0).val := by
  unfold DotDims.lhsIdx
  rw [dif_neg (show ¬(0 : Fin S1024x2000.rank) ∈ dot_S1024x2000_S2000x65_S1024x65_1_0_0_1_n_n.lhsBatch by decide), dif_pos (show (0 : Fin S1024x2000.rank) ∈ dot_S1024x2000_S2000x65_S1024x65_1_0_0_1_n_n.lhsNonContracting by decide)]
  rfl
/-- … and the contracted coordinate; -/
theorem oneHot_lhs_1 (i : S1024x65.Idx) (q : dot_S1024x2000_S2000x65_S1024x65_1_0_0_1_n_n.contr.Idx) :
    (dot_S1024x2000_S2000x65_S1024x65_1_0_0_1_n_n.lhsIdx i q 1).val = (q ⟨0, by decide⟩).val :=
  dot_S1024x2000_S2000x65_S1024x65_1_0_0_1_n_n.lhsIdx_val_of_single rfl i q
/-- the right operand at the contracted coordinate … -/
theorem oneHot_rhs_0 (i : S1024x65.Idx) (q : dot_S1024x2000_S2000x65_S1024x65_1_0_0_1_n_n.contr.Idx) :
    (dot_S1024x2000_S2000x65_S1024x65_1_0_0_1_n_n.rhsIdx i q 0).val = (q ⟨0, by decide⟩).val :=
  dot_S1024x2000_S2000x65_S1024x65_1_0_0_1_n_n.rhsIdx_val_of_single rfl i q
/-- … and the output's column. -/
theorem oneHot_rhs_1 (i : S1024x65.Idx) (q : dot_S1024x2000_S2000x65_S1024x65_1_0_0_1_n_n.contr.Idx) :
    (dot_S1024x2000_S2000x65_S1024x65_1_0_0_1_n_n.rhsIdx i q 1).val = (i 1).val := by
  unfold DotDims.rhsIdx
  rw [dif_neg (show ¬(1 : Fin S2000x65.rank) ∈ dot_S1024x2000_S2000x65_S1024x65_1_0_0_1_n_n.rhsBatch by decide), dif_pos (show (1 : Fin S2000x65.rank) ∈ dot_S1024x2000_S2000x65_S1024x65_1_0_0_1_n_n.rhsNonContracting by decide)]
  rfl

/-- A [1024, 2000] by [2000, 65] product added to zero is, at `(r, j)`, the sum over `q` of `A (r, q) * B (q, j)`. -/
theorem oneHot_matmul_apply (A : FVec Ideal S1024x2000 .bf16) (B : FVec Ideal S2000x65 .bf16) (r : Fin 1024) (j : Fin 65) :
    FloatOps.matmul dot_S1024x2000_S2000x65_S1024x65_1_0_0_1_n_n none A B (constant S1024x65 .f32 0x00000000#32) (ix2 r j)
      = ∑ q : Fin 2000, A (ix2 r q) * B (ix2 q j) := by
  rw [Ideal.matmul_constant_zero_apply, ← Equiv.sum_comp (contrEquiv1 dot_S1024x2000_S2000x65_S1024x65_1_0_0_1_n_n 2000 rfl rfl).symm]
  refine Finset.sum_congr rfl fun q _ => ?_
  have hq := contrEquiv1_symm_val dot_S1024x2000_S2000x65_S1024x65_1_0_0_1_n_n 2000 rfl rfl q
  have el : dot_S1024x2000_S2000x65_S1024x65_1_0_0_1_n_n.lhsIdx (ix2 r j) ((contrEquiv1 dot_S1024x2000_S2000x65_S1024x65_1_0_0_1_n_n 2000 rfl rfl).symm q) = ix2 r q := funext fun a => Fin.ext (by
    match a with
    | ⟨0, _⟩ => exact oneHot_lhs_0 _ _
    | ⟨1, _⟩ => exact (oneHot_lhs_1 _ _).trans hq)
  have er : dot_S1024x2000_S2000x65_S1024x65_1_0_0_1_n_n.rhsIdx (ix2 r j) ((contrEquiv1 dot_S1024x2000_S2000x65_S1024x65_1_0_0_1_n_n 2000 rfl rfl).symm q) = ix2 q j := funext fun a => Fin.ext (by
    match a with
    | ⟨0, _⟩ => exact (oneHot_rhs_0 _ _).trans hq
    | ⟨1, _⟩ => exact oneHot_rhs_1 _ _)
  rw [el, er]

/-! ## The two factors at an index -/

/-- A one-column array laid across 2000 columns reads, at `(r, q)`, its entry of row `r`. -/
theorem oneHot_column_apply {α : Type} (v : S1024x1.Idx → α) (r : Fin 1024) (q : Fin 2000) :
    broadcastTo S1024x2000 v broadcasts_S1024x1_S1024x2000 (ix2 r q) = v (ix2 r (0 : Fin 1)) := by
  refine broadcastTo_apply v _ (ix2 r q) (ix2 r (0 : Fin 1)) fun a => ?_
  match a with
  | ⟨0, _⟩ => rfl
  | ⟨1, _⟩ => rfl

/-- A trip's number is below five. -/
theorem oneHot_trip_lt (k : Fin k0_t1_loop.trips) : k.val < 5 := by
  have h1 := k.isLt; have h2 := trips_eq; omega

/-- Row `q` of trip `k`'s chunk is row `2000 k + q` of the table block. -/
theorem oneHot_chunk_apply (x2 : FVec Ideal S1x10000x65 .bf16) (k : Fin k0_t1_loop.trips) (q : Fin 2000) (j : Fin 65) :
    chunk (F := Ideal) x2 k (ix3 (0 : Fin 1) q j)
      = x2 (ix3 (0 : Fin 1) ⟨2000 * k.val + q.val, by have := oneHot_trip_lt k; omega⟩ j) := by
  unfold chunk
  show x2 ((Rect.unit (s := S1x10000x65) (k0_off1 k) S1x2000x65.size (Gen.k0_off1_inb k)).emb (ix3 (0 : Fin 1) q j)) = _
  refine congrArg x2 (funext fun a => Fin.ext ?_)
  rw [Rect.emb_apply]
  simp only [Rect.off_unit, Rect.stride_unit, k0_off1_eq]
  match a with
  | ⟨0, _⟩ => show 0 + 1 * 0 = 0; rfl
  | ⟨1, _⟩ => show 2000 * k.val + 1 * q.val = 2000 * k.val + q.val; omega
  | ⟨2, _⟩ => show 0 + 1 * j.val = j.val; omega

/-- The induction variable of trip `k` (from zero, by ones) is `k` as a word. -/
theorem oneHot_iv (k : ℕ) : Scf.iv 0#32 1#32 k = BitVec.ofNat 32 k := by
  simp [Scf.iv]

/-- For a row `q < 2000`, a trip `k < 5` and a category word below 10000, no subtraction or product wraps: the
    row equals the category less `2000 k` as words exactly when `q + 2000 k` is the category as a number. -/
theorem oneHot_word (idx : BitVec 32) (k q : ℕ) (hk : k < 5) (hq : q < 2000) (hn : idx.toNat < 10000) :
    (BitVec.ofNat 32 q = idx - BitVec.ofNat 32 k * 2000#32) ↔ q + 2000 * k = idx.toNat := by
  rw [← BitVec.toNat_inj]
  simp only [BitVec.toNat_sub, BitVec.toNat_ofNat, BitVec.toNat_mul]
  omega

/-- An equality bit, widened to a word and read as a signed integer, is the real one or zero. -/
theorem oneHot_bit (a b : BitVec 32) :
    (FloatOps.sitofp (F := Ideal) .f32 ((IntOp.cmpi .eq a b).setWidth 32) : EReal) = if a = b then 1 else 0 := by
  have hs : ∀ x : BitVec 32, (FloatOps.sitofp (F := Ideal) .f32 x : EReal) = ((x.toInt : ℝ) : EReal) := fun _ => rfl
  rw [hs]
  by_cases h : a = b
  · have e : IntOp.cmpi .eq a b = 1#1 := by
      show BitVec.ofBool (a == b) = 1#1
      rw [beq_iff_eq.mpr h]; rfl
    have e1 : (BitVec.setWidth 32 1#1).toInt = 1 := by decide
    rw [if_pos h, e, e1]; simp
  · have e : IntOp.cmpi .eq a b = 0#1 := by
      show BitVec.ofBool (a == b) = 0#1
      rw [beq_eq_false_iff_ne.mpr h]; rfl
    have e0 : (BitVec.setWidth 32 0#1).toInt = 0 := by decide
    rw [if_neg h, e, e0]; simp

/-- The mask at sample `r` and row `q`: one when `q` is the sample's category less the word `w`, else zero. -/
theorem oneHot_mask_apply (x1 : IVec S1x1024x1 32) (w : BitVec 32) (r : Fin 1024) (q : Fin 2000) :
    (truncf .bf16 (sitofp .f32 (extui 32 (cmpi .eq
        (broadcastTo S1024x2000 (iota .tc S1x2000 32 [1] iota_S1x2000_d1_w32) broadcasts_S1x2000_S1024x2000)
        (broadcastTo S1024x2000 (subi (shapeCast S1024x1 x1 shapeCasts_S1x1024x1_S1024x1) (broadcast S1024x1 w))
          broadcasts_S1024x1_S1024x2000)) natLt_1_32)) bitsLt_bf16_f32 : FVec Ideal S1024x2000 .bf16) (ix2 r q)
      = if BitVec.ofNat 32 q.val = x1 (ix3 (0 : Fin 1) r (0 : Fin 1)) - w then 1 else 0 := by
  rw [truncf_apply, sitofp_apply, extui_apply]
  show FloatOps.sitofp .f32 ((IntOp.cmpi .eq (broadcastTo S1024x2000 _ _ (ix2 r q)) (broadcastTo S1024x2000 _ _ (ix2 r q))).setWidth 32) = _
  rw [broadcastTo_1b_ab_apply, oneHot_column_apply, iota_single_apply]
  show FloatOps.sitofp .f32 ((IntOp.cmpi .eq _ (IntOp.subi (shapeCast S1024x1 x1 _ (ix2 r (0 : Fin 1))) w)).setWidth 32) = _
  rw [shapeCast_1ab_ab_apply, oneHot_bit]
  rfl

/-! ## A one-hot sum picks one term -/

/-- Over the extended reals `0 * x = 0` and `1 * x = x` for every `x`, so a sum against the indicator of
    "`q + c = n`" is the term at `q = n - c` when `c ≤ n < c + N`, and zero when no `q` qualifies. -/
theorem oneHot_sum {N : ℕ} (f : Fin N → EReal) (c n : ℕ) :
    ∑ q : Fin N, (if q.val + c = n then (1 : EReal) else 0) * f q
      = if h : c ≤ n ∧ n < c + N then f ⟨n - c, by omega⟩ else 0 := by
  split
  · rename_i h
    rw [Finset.sum_eq_single (⟨n - c, by omega⟩ : Fin N)]
    · rw [if_pos (by show n - c + c = n; omega), one_mul]
    · intro b _ hb
      rw [if_neg, zero_mul]
      intro hbe; apply hb; apply Fin.ext; show b.val = n - c; omega
    · intro h'; exact absurd (Finset.mem_univ _) h'
  · rename_i h
    apply Finset.sum_eq_zero
    intro b _
    rw [if_neg, zero_mul]
    have := b.isLt
    omega

/-! ## One trip, then all five -/

/-- Trip `k` adds the table's row at the category `n` when `2000 k ≤ n < 2000 k + 2000`, and nothing otherwise. -/
theorem oneHot_trip_apply (x1 : IVec S1x1024x1 32) (x2 : FVec Ideal S1x10000x65 .bf16) (k : Fin k0_t1_loop.trips)
    (acc : FVec Ideal S1024x65 .f32) (r : Fin 1024) (j : Fin 65) (n : ℕ)
    (hx : (x1 (ix3 (0 : Fin 1) r (0 : Fin 1))).toNat = n) (hn : n < 10000) :
    k0_pay7 (F := Ideal) x1 k acc (chunk x2 k) (ix2 r j)
      = acc (ix2 r j) + (if 2000 * k.val ≤ n ∧ n < 2000 * k.val + 2000 then x2 (ix3 (0 : Fin 1) ⟨n, hn⟩ j) else 0) := by
  have hk := oneHot_trip_lt k
  unfold k0_pay7
  simp only [matmul]
  rw [addf_apply, oneHot_matmul_apply]
  congr 1
  simp only [shapeCast_1ab_ab_apply, oneHot_chunk_apply]
  have hw : ∀ q : Fin 2000, (BitVec.ofNat 32 q.val = x1 (ix3 (0 : Fin 1) r (0 : Fin 1)) - Scalar.muli (Scf.iv 0#32 1#32 k.val) 2000#32)
      ↔ q.val + 2000 * k.val = n := fun q => by
    rw [oneHot_iv]; exact (oneHot_word _ _ _ hk q.isLt (by omega)).trans (by rw [hx])
  refine (Finset.sum_congr rfl fun q _ => ?_).trans
    ((oneHot_sum (fun q : Fin 2000 => x2 (ix3 (0 : Fin 1) ⟨2000 * k.val + q.val, by have := q.isLt; omega⟩ j))
      (2000 * k.val) n).trans ?_)
  · rw [oneHot_mask_apply, if_congr (hw q) rfl rfl]
  by_cases h : 2000 * k.val ≤ n ∧ n < 2000 * k.val + 2000
  · rw [dif_pos h, if_pos h]
    refine congrArg (fun t => x2 (ix3 (0 : Fin 1) t j)) (Fin.ext ?_)
    show 2000 * k.val + (n - 2000 * k.val) = n
    omega
  · rw [dif_neg h, if_neg h]

/-- The running value starts at zero. -/
theorem oneHot_start_apply (r : Fin 1024) (j : Fin 65) : k0_pay6 (F := Ideal) (ix2 r j) = 0 := by
  unfold k0_pay6
  show Ideal.ofBits .f32 0x00000000#32 = 0
  exact Ideal.ofBits_zero_f32

/-- After the first `m` trips the running value is the table's row at the category `n` when `n < 2000 m`, and still
    zero otherwise: the chunks are consecutive, so exactly the trip whose chunk holds `n` contributes. -/
theorem oneHot_lf_closed (x1 : IVec S1x1024x1 32) (x2 : FVec Ideal S1x10000x65 .bf16) (r : Fin 1024) (j : Fin 65) (n : ℕ)
    (hx : (x1 (ix3 (0 : Fin 1) r (0 : Fin 1))).toNat = n) (hn : n < 10000) :
    ∀ m : ℕ, m ≤ 5 → lf (F := Ideal) x1 x2 m (ix2 r j) = if n < 2000 * m then x2 (ix3 (0 : Fin 1) ⟨n, hn⟩ j) else 0
  | 0, _ => by
    rw [lf_zero, oneHot_start_apply, if_neg (by omega)]
  | m + 1, hm => by
    have h : m < k0_t1_loop.trips := by have := trips_eq; omega
    have e : lf (F := Ideal) x1 x2 (m + 1) = k0_pay7 x1 ⟨m, h⟩ (lf x1 x2 m) (chunk x2 ⟨m, h⟩) := lf_succ (F := Ideal) x1 x2 ⟨m, h⟩
    rw [e, oneHot_trip_apply x1 x2 ⟨m, h⟩ _ r j n hx hn, oneHot_lf_closed x1 x2 r j n hx hn m (by omega)]
    show (if n < 2000 * m then _ else 0) + (if 2000 * m ≤ n ∧ n < 2000 * m + 2000 then _ else 0) = _
    by_cases c1 : n < 2000 * m
    · rw [if_pos c1, if_neg (by omega), if_pos (by omega), add_zero]
    · by_cases c2 : n < 2000 * m + 2000
      · rw [if_neg c1, if_pos ⟨by omega, c2⟩, if_pos (by omega), zero_add]
      · rw [if_neg c1, if_neg (by omega), if_neg (by omega), add_zero]

/-- A word whose signed value lies in `0 … 9999` has that same value unsigned. -/
theorem oneHot_toNat_lt (w : BitVec 32) (h0 : 0 ≤ w.toInt) (h1 : w.toInt < 10000) : w.toNat < 10000 := by
  have hlt := w.isLt
  rw [BitVec.toInt_eq_toNat_cond] at h0 h1
  by_cases hc : 2 * w.toNat < 2 ^ 32
  · rw [if_pos hc] at h1; omega
  · rw [if_neg hc] at h0; omega

/-- The running value after the last trip, at sample `r` and column `j`: the table block at the sample's category. -/
theorem lf_apply (x1 : IVec S1x1024x1 32) (x2 : FVec Ideal S1x10000x65 .bf16) (r : Fin 1024) (j : Fin 65)
    (h0 : 0 ≤ (x1 (ix3 (0 : Fin 1) r (0 : Fin 1))).toInt) (h1 : (x1 (ix3 (0 : Fin 1) r (0 : Fin 1))).toInt < 10000) :
    lf (F := Ideal) x1 x2 k0_t1_loop.trips (ix2 r j)
      = x2 (ix3 (0 : Fin 1) ⟨(x1 (ix3 (0 : Fin 1) r (0 : Fin 1))).toNat % 10000, Nat.mod_lt _ (by decide)⟩ j) := by
  have hn := oneHot_toNat_lt _ h0 h1
  rw [trips_eq, oneHot_lf_closed x1 x2 r j _ rfl hn 5 (le_refl 5), if_pos (by omega)]
  refine congrArg (fun t => x2 (ix3 (0 : Fin 1) t j)) (Fin.ext ?_)
  exact (Nat.mod_eq_of_lt hn).symm

end Cert.KernelIdeal.FMV

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.Payloads.lean ====
/-
  The body's arithmetic read entry by entry over the extended reals: the three dense products a tile's first field
  stores, the three updates every field makes, and the output a tile's last field stores.
-/
import proofs.«402704_j29437705847531_3_alg».proof.Proof.Gen.KernelIdeal.Skeleton
import Idealize.ShloMosaic.PureOps.Ideal.Laws
import Idealize.ShloMosaic.Lib.ValueIdx
import Idealize.ShloMosaic.Lib.Pipeline.Value
import proofs.«402704_j29437705847531_3_alg».proof.Proof.LibColumn

noncomputable section

namespace Cert.KernelIdeal.FMV

open Cert.KernelIdeal Cert.KernelIdeal.Gen Idealize.ShloMosaic Idealize.ShloMosaic.ValueIdx

/-- Left operand of the W product, row axis: the output's row. -/
theorem lhsW_0 (i : S1024x1.Idx) (q : dot_S1024x13_S13x1_S1024x1_1_0_0_1_n_n.contr.Idx) :
    (dot_S1024x13_S13x1_S1024x1_1_0_0_1_n_n.lhsIdx i q 0).val = (i 0).val := by
  unfold DotDims.lhsIdx
  rw [dif_neg (show ¬(0 : Fin S1024x13.rank) ∈ dot_S1024x13_S13x1_S1024x1_1_0_0_1_n_n.lhsBatch by decide), dif_pos (show (0 : Fin S1024x13.rank) ∈ dot_S1024x13_S13x1_S1024x1_1_0_0_1_n_n.lhsNonContracting by decide)]
  rfl
/-- Left operand of the W product, column axis: the contracted feature. -/
theorem lhsW_1 (i : S1024x1.Idx) (q : dot_S1024x13_S13x1_S1024x1_1_0_0_1_n_n.contr.Idx) :
    (dot_S1024x13_S13x1_S1024x1_1_0_0_1_n_n.lhsIdx i q 1).val = (q ⟨0, by decide⟩).val :=
  dot_S1024x13_S13x1_S1024x1_1_0_0_1_n_n.lhsIdx_val_of_single rfl i q
/-- Right operand of the W product, row axis: the contracted feature. -/
theorem rhsW_0 (i : S1024x1.Idx) (q : dot_S1024x13_S13x1_S1024x1_1_0_0_1_n_n.contr.Idx) :
    (dot_S1024x13_S13x1_S1024x1_1_0_0_1_n_n.rhsIdx i q 0).val = (q ⟨0, by decide⟩).val :=
  dot_S1024x13_S13x1_S1024x1_1_0_0_1_n_n.rhsIdx_val_of_single rfl i q
/-- Right operand of the W product, column axis: the output's column. -/
theorem rhsW_1 (i : S1024x1.Idx) (q : dot_S1024x13_S13x1_S1024x1_1_0_0_1_n_n.contr.Idx) :
    (dot_S1024x13_S13x1_S1024x1_1_0_0_1_n_n.rhsIdx i q 1).val = (i 1).val := by
  unfold DotDims.rhsIdx
  rw [dif_neg (show ¬(1 : Fin S13x1.rank) ∈ dot_S1024x13_S13x1_S1024x1_1_0_0_1_n_n.rhsBatch by decide), dif_pos (show (1 : Fin S13x1.rank) ∈ dot_S1024x13_S13x1_S1024x1_1_0_0_1_n_n.rhsNonContracting by decide)]
  rfl

/-- The W product into a zero accumulator, entry `(r, c)`: the sum over the 13 features of row `r` of the left
    operand times column `c` of the right. -/
theorem matmulW_apply (x : FVec Ideal S1024x13 .f32) (y : FVec Ideal S13x1 .f32) (r : Fin 1024) (c : Fin 1) :
    FloatOps.matmul dot_S1024x13_S13x1_S1024x1_1_0_0_1_n_n none x y (constant (F := Ideal) S1024x1 .f32 0x00000000#32) (ix2 r c)
      = ∑ a : Fin 13, x (ix2 r a) * y (ix2 a c) := by
  rw [Ideal.matmul_constant_zero_apply, ← Equiv.sum_comp (contrEquiv1 dot_S1024x13_S13x1_S1024x1_1_0_0_1_n_n 13 rfl rfl).symm]
  refine Finset.sum_congr rfl fun k _ => ?_
  have hk := contrEquiv1_symm_val dot_S1024x13_S13x1_S1024x1_1_0_0_1_n_n 13 rfl rfl k
  have el : dot_S1024x13_S13x1_S1024x1_1_0_0_1_n_n.lhsIdx (ix2 r c) ((contrEquiv1 dot_S1024x13_S13x1_S1024x1_1_0_0_1_n_n 13 rfl rfl).symm k) = ix2 r k := funext fun a => Fin.ext (by
    match a with
    | ⟨0, _⟩ => exact lhsW_0 _ _
    | ⟨1, _⟩ => exact (lhsW_1 _ _).trans hk)
  have er : dot_S1024x13_S13x1_S1024x1_1_0_0_1_n_n.rhsIdx (ix2 r c) ((contrEquiv1 dot_S1024x13_S13x1_S1024x1_1_0_0_1_n_n 13 rfl rfl).symm k) = ix2 k c := funext fun a => Fin.ext (by
    match a with
    | ⟨0, _⟩ => exact (rhsW_0 _ _).trans hk
    | ⟨1, _⟩ => exact rhsW_1 _ _)
  rw [el, er]

/-- Left operand of the V product, row axis: the output's row. -/
theorem lhsV_0 (i : S1024x64.Idx) (q : dot_S1024x13_S13x64_S1024x64_1_0_0_1_n_n.contr.Idx) :
    (dot_S1024x13_S13x64_S1024x64_1_0_0_1_n_n.lhsIdx i q 0).val = (i 0).val := by
  unfold DotDims.lhsIdx
  rw [dif_neg (show ¬(0 : Fin S1024x13.rank) ∈ dot_S1024x13_S13x64_S1024x64_1_0_0_1_n_n.lhsBatch by decide), dif_pos (show (0 : Fin S1024x13.rank) ∈ dot_S1024x13_S13x64_S1024x64_1_0_0_1_n_n.lhsNonContracting by decide)]
  rfl
/-- Left operand of the V product, column axis: the contracted feature. -/
theorem lhsV_1 (i : S1024x64.Idx) (q : dot_S1024x13_S13x64_S1024x64_1_0_0_1_n_n.contr.Idx) :
    (dot_S1024x13_S13x64_S1024x64_1_0_0_1_n_n.lhsIdx i q 1).val = (q ⟨0, by decide⟩).val :=
  dot_S1024x13_S13x64_S1024x64_1_0_0_1_n_n.lhsIdx_val_of_single rfl i q
/-- Right operand of the V product, row axis: the contracted feature. -/
theorem rhsV_0 (i : S1024x64.Idx) (q : dot_S1024x13_S13x64_S1024x64_1_0_0_1_n_n.contr.Idx) :
    (dot_S1024x13_S13x64_S1024x64_1_0_0_1_n_n.rhsIdx i q 0).val = (q ⟨0, by decide⟩).val :=
  dot_S1024x13_S13x64_S1024x64_1_0_0_1_n_n.rhsIdx_val_of_single rfl i q
/-- Right operand of the V product, column axis: the output's column. -/
theorem rhsV_1 (i : S1024x64.Idx) (q : dot_S1024x13_S13x64_S1024x64_1_0_0_1_n_n.contr.Idx) :
    (dot_S1024x13_S13x64_S1024x64_1_0_0_1_n_n.rhsIdx i q 1).val = (i 1).val := by
  unfold DotDims.rhsIdx
  rw [dif_neg (show ¬(1 : Fin S13x64.rank) ∈ dot_S1024x13_S13x64_S1024x64_1_0_0_1_n_n.rhsBatch by decide), dif_pos (show (1 : Fin S13x64.rank) ∈ dot_S1024x13_S13x64_S1024x64_1_0_0_1_n_n.rhsNonContracting by decide)]
  rfl

/-- The V product into a zero accumulator, entry `(r, c)`: the sum over the 13 features of row `r` of the left
    operand times column `c` of the right. -/
theorem matmulV_apply (x : FVec Ideal S1024x13 .f32) (y : FVec Ideal S13x64 .f32) (r : Fin 1024) (c : Fin 64) :
    FloatOps.matmul dot_S1024x13_S13x64_S1024x64_1_0_0_1_n_n none x y (constant (F := Ideal) S1024x64 .f32 0x00000000#32) (ix2 r c)
      = ∑ a : Fin 13, x (ix2 r a) * y (ix2 a c) := by
  rw [Ideal.matmul_constant_zero_apply, ← Equiv.sum_comp (contrEquiv1 dot_S1024x13_S13x64_S1024x64_1_0_0_1_n_n 13 rfl rfl).symm]
  refine Finset.sum_congr rfl fun k _ => ?_
  have hk := contrEquiv1_symm_val dot_S1024x13_S13x64_S1024x64_1_0_0_1_n_n 13 rfl rfl k
  have el : dot_S1024x13_S13x64_S1024x64_1_0_0_1_n_n.lhsIdx (ix2 r c) ((contrEquiv1 dot_S1024x13_S13x64_S1024x64_1_0_0_1_n_n 13 rfl rfl).symm k) = ix2 r k := funext fun a => Fin.ext (by
    match a with
    | ⟨0, _⟩ => exact lhsV_0 _ _
    | ⟨1, _⟩ => exact (lhsV_1 _ _).trans hk)
  have er : dot_S1024x13_S13x64_S1024x64_1_0_0_1_n_n.rhsIdx (ix2 r c) ((contrEquiv1 dot_S1024x13_S13x64_S1024x64_1_0_0_1_n_n 13 rfl rfl).symm k) = ix2 k c := funext fun a => Fin.ext (by
    match a with
    | ⟨0, _⟩ => exact (rhsV_0 _ _).trans hk
    | ⟨1, _⟩ => exact rhsV_1 _ _)
  rw [el, er]

/-- The first 64 columns of the gathered rows: entry `(r, k)` of the slice is entry `(r, k)` of the whole. -/
theorem pay8_apply (L : FVec Ideal S1024x65 .f32) (r : Fin 1024) (k : Fin 64) :
    k0_pay8 (F := Ideal) L (ix2 r k) = L (ix2 r (⟨k.val, by have := k.isLt; omega⟩ : Fin 65)) := by
  unfold k0_pay8
  exact extractStridedSlice_apply ![0, 0] L slices_S1024x65_o0_0_S1024x64 (ix2 r k)
    (ix2 r (⟨k.val, by have := k.isLt; omega⟩ : Fin 65)) (fun a => match a with
    | ⟨0, _⟩ => by show r.val = 0 + r.val; omega
    | ⟨1, _⟩ => by show k.val = 0 + k.val; omega)

/-- The last column of the gathered rows: entry `(r, 0)` of the slice is entry `(r, 64)` of the whole. -/
theorem last_apply (L : FVec Ideal S1024x65 .f32) (r : Fin 1024) :
    extractStridedSlice S1024x1 ![0, 64] L slices_S1024x65_o0_64_S1024x1 (ix2 r (0 : Fin 1))
      = L (ix2 r (⟨64, by decide⟩ : Fin 65)) :=
  extractStridedSlice_apply ![0, 64] L slices_S1024x65_o0_64_S1024x1 (ix2 r (0 : Fin 1))
    (ix2 r (⟨64, by decide⟩ : Fin 65)) (fun a => match a with
    | ⟨0, _⟩ => by show r.val = 0 + r.val; omega
    | ⟨1, _⟩ => by show 64 = 64 + 0; rfl)

/-- `d · w` over the 13 dense features. -/
theorem pay3_apply (x0 : FVec Ideal S1024x13 .f32) (x3 : FVec Ideal S13x1 .f32) (r : Fin 1024) :
    k0_pay3 (F := Ideal) x0 x3 (ix2 r (0 : Fin 1)) = ∑ a : Fin 13, x0 (ix2 r a) * x3 (ix2 a (0 : Fin 1)) := by
  unfold k0_pay3
  simp only [matmul]
  rw [shapeCast_self, shapeCast_self]
  exact matmulW_apply x0 x3 r 0

/-- `d · Vₖ` over the 13 dense features. -/
theorem pay4_apply (x0 : FVec Ideal S1024x13 .f32) (x4 : FVec Ideal S13x64 .f32) (r : Fin 1024) (k : Fin 64) :
    k0_pay4 (F := Ideal) x0 x4 (ix2 r k) = ∑ a : Fin 13, x0 (ix2 r a) * x4 (ix2 a k) := by
  unfold k0_pay4 k0_pay2
  simp only [matmul]
  rw [shapeCast_self, shapeCast_self]
  exact matmulV_apply x0 x4 r k

/-- `d² · Vₖ²` over the 13 dense features. -/
theorem pay5_apply (x0 : FVec Ideal S1024x13 .f32) (x4 : FVec Ideal S13x64 .f32) (r : Fin 1024) (k : Fin 64) :
    k0_pay5 (F := Ideal) x0 x4 (ix2 r k)
      = ∑ a : Fin 13, (x0 (ix2 r a) * x0 (ix2 r a)) * (x4 (ix2 a k) * x4 (ix2 a k)) := by
  unfold k0_pay5 k0_pay2
  simp only [matmul]
  rw [shapeCast_self, shapeCast_self]
  exact matmulV_apply (mulf x0 x0) (mulf x4 x4) r k

/-- The first-order sum gains the gathered row's last column. -/
theorem pay9_apply (L : FVec Ideal S1024x65 .f32) (v : FVec Ideal S1024x1 .f32) (r : Fin 1024) :
    k0_pay9 (F := Ideal) L v (ix2 r (0 : Fin 1)) = v (ix2 r (0 : Fin 1)) + L (ix2 r (⟨64, by decide⟩ : Fin 65)) := by
  unfold k0_pay9
  rw [shapeCast_self]
  exact congrArg (v (ix2 r (0 : Fin 1)) + ·) (last_apply L r)

/-- The embedding sum gains the gathered row's column `k`. -/
theorem pay10_apply (L : FVec Ideal S1024x65 .f32) (v : FVec Ideal S1024x64 .f32) (r : Fin 1024) (k : Fin 64) :
    k0_pay10 (F := Ideal) L v (ix2 r k) = v (ix2 r k) + L (ix2 r (⟨k.val, by have := k.isLt; omega⟩ : Fin 65)) := by
  unfold k0_pay10
  rw [shapeCast_self]
  exact congrArg (v (ix2 r k) + ·) (pay8_apply L r k)

/-- The sum of squares gains the square of the gathered row's column `k`. -/
theorem pay11_apply (L : FVec Ideal S1024x65 .f32) (v : FVec Ideal S1024x64 .f32) (r : Fin 1024) (k : Fin 64) :
    k0_pay11 (F := Ideal) L v (ix2 r k)
      = v (ix2 r k) + L (ix2 r (⟨k.val, by have := k.isLt; omega⟩ : Fin 65)) * L (ix2 r (⟨k.val, by have := k.isLt; omega⟩ : Fin 65)) := by
  unfold k0_pay11
  rw [shapeCast_self]
  exact congrArg (fun t => v (ix2 r k) + t * t) (pay8_apply L r k)

/-- The output: the first-order sum plus half the sum over `k` of the squared embedding sum less the sum of squares. -/
theorem pay1_apply (v30 v31 : FVec Ideal S1024x64 .f32) (v38 : FVec Ideal S1024x1 .f32) (r : Fin 1024) :
    k0_pay1 (F := Ideal) v30 v31 v38 (ix2 r (0 : Fin 1))
      = v38 (ix2 r (0 : Fin 1)) + Ideal.ofBits .f32 0x3F000000#32 * ∑ k : Fin 64, (v30 (ix2 r k) * v30 (ix2 r k) - v31 (ix2 r k)) := by
  unfold k0_pay1
  refine congrArg (fun t => v38 (ix2 r (0 : Fin 1)) + Ideal.ofBits .f32 0x3F000000#32 * t) ?_
  refine (Cert.LibColumn.shapeCast_a_a1_apply _ shapeCasts_S1024_S1024x1 r (0 : Fin 1)).trans ?_
  exact Cert.LibColumn.sumAxis1_apply (subf (mulf v30 v30) v31) 0x00000000#32 reduces_S1024x64_S1024 (.inl rfl) rfl r

end Cert.KernelIdeal.FMV

end
-- ==== Proof.Args.lean ====
/-
  The five argument arrays of a launch memory, named with their literal types: the dense features, the categories,
  the bias, the weight vector and the embedding matrix.
-/
import proofs.«402704_j29437705847531_3_alg».proof.Proof.Gen.KernelIdeal
import proofs.«402704_j29437705847531_3_alg».proof.Proof.Spec

noncomputable section

namespace Cert.KernelIdeal.FMV

open Cert.KernelIdeal Idealize.ShloMosaic Idealize.SL.Sem

variable (m : (ℓ : Loc nD τ sig) → Buf (Elt Ideal) ℓ) (c : Dev nD)

abbrev argD : FVec Ideal S16384x13 .f32 := m ((c.tc : Thread nD τ).loc main_arg0)
abbrev argS : IVec S16384x26 32 := m ((c.tc : Thread nD τ).loc main_arg1)
abbrev argB : FVec Ideal S1 .f32 := m ((c.tc : Thread nD τ).loc main_arg2)
abbrev argW : FVec Ideal S260013x1 .f32 := m ((c.tc : Thread nD τ).loc main_arg3)
abbrev argV : FVec Ideal S64x260013 .f32 := m ((c.tc : Thread nD τ).loc main_arg4)

end Cert.KernelIdeal.FMV

end
-- ==== Proof.Blocks.lean ====
/-
  What each window's block holds at a grid point, in terms of the argument arrays.  Point `n` works on batch tile
  `n / 26` and field `n % 26`.  The host lines before the call cut the weight vector and the embedding matrix into the
  13 dense columns and a [26, 10000, 65] table whose entry (j, q, k) is column `13 + 10000 j + q` of `V`'s row `k`
  for `k < 64` and of `w` for `k = 64`, and clamp and transpose the categories.
-/
import proofs.«402704_j29437705847531_3_alg».proof.Proof.Gen.KernelIdeal.Frame
import proofs.«402704_j29437705847531_3_alg».proof.Proof.Args
import Idealize.ShloMosaic.Lib.Pipeline.Value
import Idealize.ShloMosaic.Lib.ValueIdx
import Idealize.ShloMosaic.Lib.StableHlo.Run

set_option maxRecDepth 16384

noncomputable section

namespace Cert.KernelIdeal.FMV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## The windows' arrays as the host lines compute them -/

/-- The dense weights as the program cuts them out of the weight vector. -/
theorem blk_V_v0 : (V m c main_v0 : FVec Ideal S13x1 .f32)
    = extractStridedSlice S13x1 ![0, 0] (argW m c) slices_S260013x1_S13x1_0_0 := by
  dsimp only [Gen.V, Gen.V0]
  simp only [Gen.hostOps0, Gen.hostOps0_1, Gen.hostOps0_2, List.flatten_cons, List.flatten_nil, List.append_nil,
    List.cons_append, List.nil_append]
  after_results <;> rfl

/-- The dense embedding columns as the program cuts and transposes them. -/
theorem blk_V_v5 : (V m c main_v5 : FVec Ideal S13x64 .f32)
    = transpose S13x64 [1, 0] (extractStridedSlice S64x13 ![0, 0] (argV m c) slices_S64x260013_S64x13_0_0)
        transposes_S64x13_S13x64_1_0 := by
  dsimp only [Gen.V, Gen.V0]
  simp only [Gen.hostOps0, Gen.hostOps0_1, Gen.hostOps0_2, List.flatten_cons, List.flatten_nil, List.append_nil,
    List.cons_append, List.nil_append]
  after_results <;> rfl

/-- The categories as the program clamps, transposes and pads them. -/
theorem blk_V_v14 : (V m c main_v14 : IVec S26x16384x1 32)
    = broadcastInDim S26x16384x1 ![0, 1] bcast_S26x16384_S26x16384x1_0_1
        (transpose S26x16384 [1, 0]
          (minsi (broadcastInDim S16384x26 ![] bcast_S_S16384x26 (constantI S_ 32 9999#32))
            (maxsi (broadcastInDim S16384x26 ![] bcast_S_S16384x26 (constantI S_ 32 0#32)) (argS m c)))
          transposes_S16384x26_S26x16384_1_0) := by
  dsimp only [Gen.V, Gen.V0]
  simp only [Gen.hostOps0, Gen.hostOps0_1, Gen.hostOps0_2, List.flatten_cons, List.flatten_nil, List.append_nil,
    List.cons_append, List.nil_append]
  after_results <;> rfl

/-- The table as the program builds it from the weight vector and the embedding matrix. -/
theorem blk_V_v11 : (V m c main_v11 : FVec Ideal S26x10000x65 .bf16)
    = truncf .bf16 (concatenate S26x10000x65 2
        [⟨S26x10000x64, transpose S26x10000x64 [1, 2, 0]
            (shapeCast S64x26x10000 (extractStridedSlice S64x260000 ![0, 13] (argV m c) slices_S64x260013_S64x260000_0_13)
              shapeCasts_S64x260000_S64x26x10000) transposes_S64x26x10000_S26x10000x64_1_2_0⟩,
         ⟨S26x10000x1, broadcastInDim S26x10000x1 ![0, 1] bcast_S26x10000_S26x10000x1_0_1
            (shapeCast S26x10000 (shapeCast S260000
              (extractStridedSlice S260000x1 ![13, 0] (argW m c) slices_S260013x1_S260000x1_13_0)
              shapeCasts_S260000x1_S260000) shapeCasts_S260000_S26x10000)⟩]
        concatenates_S26x10000x64_S26x10000x1_S26x10000x65_d2) bitsLt_bf16_f32 := by
  dsimp only [Gen.V, Gen.V0]
  simp only [Gen.hostOps0, Gen.hostOps0_1, Gen.hostOps0_2, List.flatten_cons, List.flatten_nil, List.append_nil,
    List.cons_append, List.nil_append]
  after_results <;> rfl

/-- A category in range is its own clamp into `[0, 9999]`: the maximum with 0 and the minimum with 9999, both signed. -/
theorem blk_clamp_apply (s : IVec S16384x26 32) (i : S16384x26.Idx) (h0 : 0 ≤ (s i).toInt) (h1 : (s i).toInt < 10000) :
    minsi (broadcastInDim S16384x26 ![] bcast_S_S16384x26 (constantI S_ 32 9999#32))
      (maxsi (broadcastInDim S16384x26 ![] bcast_S_S16384x26 (constantI S_ 32 0#32)) s) i = s i := by
  show IntOp.minsi (9999#32) (IntOp.maxsi (0#32) (s i)) = s i
  have e0 : (0#32 : BitVec 32).toInt = 0 := by decide
  have e1 : (9999#32 : BitVec 32).toInt = 9999 := by decide
  have hmax : IntOp.maxsi (0#32) (s i) = s i := by
    unfold IntOp.maxsi
    rw [if_neg]
    rw [BitVec.slt_iff_toInt_lt, e0]; omega
  rw [hmax]
  unfold IntOp.minsi
  rw [if_neg]
  rw [BitVec.slt_iff_toInt_lt, e1]; omega

/-- The clamped, transposed categories with a unit axis appended, read at field `j`, sample `b`. -/
theorem blk_cats_apply (s : IVec S16384x26 32) (j : Fin 26) (b : Fin 16384)
    (h0 : 0 ≤ (s (ix2 b j)).toInt) (h1 : (s (ix2 b j)).toInt < 10000) :
    (broadcastInDim S26x16384x1 ![0, 1] bcast_S26x16384_S26x16384x1_0_1
        (transpose S26x16384 [1, 0]
          (minsi (broadcastInDim S16384x26 ![] bcast_S_S16384x26 (constantI S_ 32 9999#32))
            (maxsi (broadcastInDim S16384x26 ![] bcast_S_S16384x26 (constantI S_ 32 0#32)) s))
          transposes_S16384x26_S26x16384_1_0) : IVec S26x16384x1 32) (ix3 j b (0 : Fin 1))
      = s (ix2 b j) := by
  refine (broadcastInDim_apply ![0, 1] bcast_S26x16384_S26x16384x1_0_1 _ (ix3 j b (0 : Fin 1)) (ix2 j b)
    (fun a => match a with | ⟨0, _⟩ => rfl | ⟨1, _⟩ => rfl)).trans ?_
  refine (transpose_apply [1, 0] _ transposes_S16384x26_S26x16384_1_0 (ix2 j b) (ix2 b j)
    (fun d => match d with | ⟨0, _⟩ => rfl | ⟨1, _⟩ => rfl)).trans ?_
  exact blk_clamp_apply s (ix2 b j) h0 h1

/-- The first 13 entries of the weight vector. -/
theorem blk_dw_apply (w : FVec Ideal S260013x1 .f32) (a : Fin 13) :
    (extractStridedSlice S13x1 ![0, 0] w slices_S260013x1_S13x1_0_0 : FVec Ideal S13x1 .f32) (ix2 a (0 : Fin 1))
      = w (ix2 (FM.dcol a) (0 : Fin 1)) := by
  refine extractStridedSlice_apply ![0, 0] w slices_S260013x1_S13x1_0_0 (ix2 a (0 : Fin 1))
    (ix2 (FM.dcol a) (0 : Fin 1)) (fun d => ?_)
  match d with
  | ⟨0, _⟩ => show a.val = 0 + a.val; omega
  | ⟨1, _⟩ => show 0 = 0 + 0; omega

/-- The first 13 columns of the embedding matrix, transposed. -/
theorem blk_dv_apply (Vm : FVec Ideal S64x260013 .f32) (a : Fin 13) (k : Fin 64) :
    (transpose S13x64 [1, 0] (extractStridedSlice S64x13 ![0, 0] Vm slices_S64x260013_S64x13_0_0)
        transposes_S64x13_S13x64_1_0 : FVec Ideal S13x64 .f32) (ix2 a k)
      = Vm (ix2 k (FM.dcol a)) := by
  refine (transpose_apply [1, 0] _ transposes_S64x13_S13x64_1_0 (ix2 a k) (ix2 k a)
    (fun d => match d with | ⟨0, _⟩ => rfl | ⟨1, _⟩ => rfl)).trans ?_
  refine extractStridedSlice_apply ![0, 0] Vm slices_S64x260013_S64x13_0_0 (ix2 k a) (ix2 k (FM.dcol a)) (fun d => ?_)
  match d with
  | ⟨0, _⟩ => show k.val = 0 + k.val; omega
  | ⟨1, _⟩ => show a.val = 0 + a.val; omega

/-- The table the program builds, read at field `j`, entry `q`, coordinate `k`: the embedding matrix's row `k` at
    column `13 + 10000 j + q` for `k < 64`, the weight vector at that column for `k = 64`. -/
theorem blk_table_apply (w : FVec Ideal S260013x1 .f32) (Vm : FVec Ideal S64x260013 .f32)
    (j : Fin 26) (q : Fin 10000) (k : Fin 65) :
    (truncf .bf16 (concatenate S26x10000x65 2
        [⟨S26x10000x64, transpose S26x10000x64 [1, 2, 0]
            (shapeCast S64x26x10000 (extractStridedSlice S64x260000 ![0, 13] Vm slices_S64x260013_S64x260000_0_13)
              shapeCasts_S64x260000_S64x26x10000) transposes_S64x26x10000_S26x10000x64_1_2_0⟩,
         ⟨S26x10000x1, broadcastInDim S26x10000x1 ![0, 1] bcast_S26x10000_S26x10000x1_0_1
            (shapeCast S26x10000 (shapeCast S260000
              (extractStridedSlice S260000x1 ![13, 0] w slices_S260013x1_S260000x1_13_0)
              shapeCasts_S260000x1_S260000) shapeCasts_S260000_S26x10000)⟩]
        concatenates_S26x10000x64_S26x10000x1_S26x10000x65_d2) bitsLt_bf16_f32 : FVec Ideal S26x10000x65 .bf16)
      (ix3 j q k)
    = if h : k.val < 64 then Vm (ix2 (⟨k.val, h⟩ : Fin 64) (FM.tcol j q)) else w (ix2 (FM.tcol j q) (0 : Fin 1)) := by
  have hj := j.isLt
  have hq := q.isLt
  have hk := k.isLt
  have hp : 10000 * j.val + q.val < 260000 := by omega
  rw [truncf_apply]
  by_cases h : k.val < 64
  · rw [dif_pos h]
    -- the coordinate on the joined axis falls in the first piece
    refine (concatenate_pair_apply_left (t := S26x10000x65) (s₁ := S26x10000x64) (s₂ := S26x10000x1) (2 : Fin 3) _ _ concatenates_S26x10000x64_S26x10000x1_S26x10000x65_d2
      (ix3 j q k) rfl (ix3 j q (⟨k.val, h⟩ : Fin 64))
      (fun b => match b with | ⟨0, _⟩ => rfl | ⟨1, _⟩ => rfl | ⟨2, _⟩ => rfl)).trans ?_
    -- the transpose moves the coordinate `k` to the front
    refine (transpose_apply [1, 2, 0] _ transposes_S64x26x10000_S26x10000x64_1_2_0
      (ix3 j q (⟨k.val, h⟩ : Fin 64)) (ix3 (⟨k.val, h⟩ : Fin 64) j q)
      (fun b => match b with | ⟨0, _⟩ => rfl | ⟨1, _⟩ => rfl | ⟨2, _⟩ => rfl)).trans ?_
    -- (j, q) of the [26, 10000] split is position 10000 j + q of the 260000 columns
    refine (shapeCast_apply _ shapeCasts_S64x260000_S64x26x10000 (ix3 (⟨k.val, h⟩ : Fin 64) j q)
      (ix2 (⟨k.val, h⟩ : Fin 64) (⟨10000 * j.val + q.val, hp⟩ : Fin 260000)) ?_).trans ?_
    · rw [Shape.rowMajor_val_two, Shape.rowMajor_val_three]
      show k.val * 260000 + (10000 * j.val + q.val) = (k.val * 26 + j.val) * 10000 + q.val
      omega
    -- the cut starts at column 13
    refine extractStridedSlice_apply ![0, 13] Vm slices_S64x260013_S64x260000_0_13
      (ix2 (⟨k.val, h⟩ : Fin 64) (⟨10000 * j.val + q.val, hp⟩ : Fin 260000))
      (ix2 (⟨k.val, h⟩ : Fin 64) (FM.tcol j q)) (fun a => ?_)
    match a with
    | ⟨0, _⟩ => show k.val = 0 + k.val; omega
    | ⟨1, _⟩ => show 13 + 10000 * j.val + q.val = 13 + (10000 * j.val + q.val); omega
  · rw [dif_neg h]
    -- the coordinate on the joined axis is 64: the second piece, at 0
    refine (concatenate_pair_apply_right (t := S26x10000x65) (s₁ := S26x10000x64) (s₂ := S26x10000x1) (2 : Fin 3) _ _ concatenates_S26x10000x64_S26x10000x1_S26x10000x65_d2
      (ix3 j q k) rfl rfl (ix3 j q (0 : Fin 1))
      (fun b => match b with
        | ⟨0, _⟩ => fun _ => rfl
        | ⟨1, _⟩ => fun _ => rfl
        | ⟨2, _⟩ => fun hb => absurd rfl hb)
      (by show 0 + 64 = k.val; omega)).trans ?_
    refine (broadcastInDim_apply ![0, 1] bcast_S26x10000_S26x10000x1_0_1 _ (ix3 j q (0 : Fin 1)) (ix2 j q)
      (fun a => match a with | ⟨0, _⟩ => rfl | ⟨1, _⟩ => rfl)).trans ?_
    refine (shapeCast_apply _ shapeCasts_S260000_S26x10000 (ix2 j q)
      (ix1 (⟨10000 * j.val + q.val, hp⟩ : Fin 260000)) ?_).trans ?_
    · rw [Shape.rowMajor_val_one, Shape.rowMajor_val_two]
      show 10000 * j.val + q.val = j.val * 10000 + q.val
      omega
    refine (shapeCast_apply _ shapeCasts_S260000x1_S260000 (ix1 (⟨10000 * j.val + q.val, hp⟩ : Fin 260000))
      (ix2 (⟨10000 * j.val + q.val, hp⟩ : Fin 260000) (0 : Fin 1)) ?_).trans ?_
    · rw [Shape.rowMajor_val_one, Shape.rowMajor_val_two]
      show (10000 * j.val + q.val) * 1 + 0 = 10000 * j.val + q.val
      omega
    refine extractStridedSlice_apply ![13, 0] w slices_S260013x1_S260000x1_13_0
      (ix2 (⟨10000 * j.val + q.val, hp⟩ : Fin 260000) (0 : Fin 1)) (ix2 (FM.tcol j q) (0 : Fin 1)) (fun a => ?_)
    match a with
    | ⟨0, _⟩ => show 13 + 10000 * j.val + q.val = 13 + (10000 * j.val + q.val); omega
    | ⟨1, _⟩ => show 0 = 0 + 0; omega

/-- Where each window's block sits at grid point `t`: its block number on every axis, for each of the 416 points. -/
theorem blk_idx0 : ∀ t : Fin cfg0.N, win0_0.index t (0 : Fin 2) = t.val / 26 ∧ win0_0.index t (1 : Fin 2) = 0 :=
  (by decide +kernel : ∀ t : Fin grid0.N, _)
theorem blk_idx1 : ∀ t : Fin cfg0.N, win0_1.index t (0 : Fin 3) = t.val % 26 ∧ win0_1.index t (1 : Fin 3) = t.val / 26
    ∧ win0_1.index t (2 : Fin 3) = 0 :=
  (by decide +kernel : ∀ t : Fin grid0.N, _)
theorem blk_idx2 : ∀ t : Fin cfg0.N, win0_2.index t (0 : Fin 3) = t.val % 26 ∧ win0_2.index t (1 : Fin 3) = 0
    ∧ win0_2.index t (2 : Fin 3) = 0 :=
  (by decide +kernel : ∀ t : Fin grid0.N, _)
theorem blk_idx3 : ∀ t : Fin cfg0.N, win0_3.index t (0 : Fin 2) = 0 ∧ win0_3.index t (1 : Fin 2) = 0 :=
  (by decide +kernel : ∀ t : Fin grid0.N, _)
theorem blk_idx4 : ∀ t : Fin cfg0.N, win0_4.index t (0 : Fin 2) = 0 ∧ win0_4.index t (1 : Fin 2) = 0 :=
  (by decide +kernel : ∀ t : Fin grid0.N, _)

/-- The dense block: rows `1024 (n / 26) …` of the dense features. -/
theorem blk0_apply (t : Fin cfg0.N) (r : Fin 1024) (a : Fin 13) :
    (iblk m c 0 t : FVec Ideal S1024x13 .f32) (ix2 r a) = argD m c (ix2 (FM.row (t.val / 26) r) a) := by
  have ht : t.val < 416 := lt_of_lt_of_eq t.isLt N_0
  have hr := r.isLt
  unfold Gen.iblk
  rw [View.read_apply]
  show V m c main_arg0 (((cfg0.win 0).blk t).view.emb (ix2 r a)) = _
  rw [V_main_arg0]
  show m ((c : Thread nD τ).loc main_arg0) _ = m ((c : Thread nD τ).loc main_arg0) _
  congr 1
  funext d
  apply Fin.ext
  match d with
  | ⟨0, _⟩ =>
    show win0_0.index t 0 * 1024 + 1 * r.val = (1024 * (t.val / 26) + r.val) % 16384
    rw [(blk_idx0 t).1]; omega
  | ⟨1, _⟩ =>
    show win0_0.index t 1 * 13 + 1 * a.val = a.val
    rw [(blk_idx0 t).2]; omega

/-- The category block: field `n % 26` of the same rows; the clamp is the identity on a category in range. -/
theorem blk1_apply (t : Fin cfg0.N) (r : Fin 1024)
    (h0 : 0 ≤ (argS m c (ix2 (FM.row (t.val / 26) r) (FM.fld t.val))).toInt)
    (h1 : (argS m c (ix2 (FM.row (t.val / 26) r) (FM.fld t.val))).toInt < 10000) :
    (iblk m c 1 t : IVec S1x1024x1 32) (ix3 (0 : Fin 1) r (0 : Fin 1))
      = argS m c (ix2 (FM.row (t.val / 26) r) (FM.fld t.val)) := by
  have ht : t.val < 416 := lt_of_lt_of_eq t.isLt N_0
  have hr := r.isLt
  have e : ((cfg0.win 1).blk t).view.emb (ix3 (0 : Fin 1) r (0 : Fin 1))
      = (ix3 (FM.fld t.val) (FM.row (t.val / 26) r) (0 : Fin 1) : S26x16384x1.Idx) := by
    funext d
    apply Fin.ext
    match d with
    | ⟨0, _⟩ =>
      show win0_1.index t 0 * 1 + 1 * 0 = t.val % 26
      rw [(blk_idx1 t).1]; omega
    | ⟨1, _⟩ =>
      show win0_1.index t 1 * 1024 + 1 * r.val = (1024 * (t.val / 26) + r.val) % 16384
      rw [(blk_idx1 t).2.1]; omega
    | ⟨2, _⟩ =>
      show win0_1.index t 2 * 1 + 1 * 0 = 0
      rw [(blk_idx1 t).2.2]
  unfold Gen.iblk
  rw [View.read_apply]
  show V m c main_v14 (((cfg0.win 1).blk t).view.emb (ix3 (0 : Fin 1) r (0 : Fin 1))) = _
  rw [e, blk_V_v14]
  exact blk_cats_apply (argS m c) (FM.fld t.val) (FM.row (t.val / 26) r) h0 h1

/-- The table block of field `n % 26`: the embedding columns, then the weight column. -/
theorem blk2_apply (t : Fin cfg0.N) (q : Fin 10000) (j : Fin 65) :
    (iblk m c 2 t : FVec Ideal S1x10000x65 .bf16) (ix3 (0 : Fin 1) q j)
      = if h : j.val < 64 then argV m c (ix2 (⟨j.val, h⟩ : Fin 64) (FM.tcol (FM.fld t.val) q))
        else argW m c (ix2 (FM.tcol (FM.fld t.val) q) (0 : Fin 1)) := by
  have ht : t.val < 416 := lt_of_lt_of_eq t.isLt N_0
  have e : ((cfg0.win 2).blk t).view.emb (ix3 (0 : Fin 1) q j)
      = (ix3 (FM.fld t.val) q j : S26x10000x65.Idx) := by
    funext d
    apply Fin.ext
    match d with
    | ⟨0, _⟩ =>
      show win0_2.index t 0 * 1 + 1 * 0 = t.val % 26
      rw [(blk_idx2 t).1]; omega
    | ⟨1, _⟩ =>
      show win0_2.index t 1 * 10000 + 1 * q.val = q.val
      rw [(blk_idx2 t).2.1]; omega
    | ⟨2, _⟩ =>
      show win0_2.index t 2 * 65 + 1 * j.val = j.val
      rw [(blk_idx2 t).2.2]; omega
  unfold Gen.iblk
  rw [View.read_apply]
  show V m c main_v11 (((cfg0.win 2).blk t).view.emb (ix3 (0 : Fin 1) q j)) = _
  rw [e, blk_V_v11]
  exact blk_table_apply (argW m c) (argV m c) (FM.fld t.val) q j

/-- The dense weights. -/
theorem blk3_apply (t : Fin cfg0.N) (a : Fin 13) :
    (iblk m c 3 t : FVec Ideal S13x1 .f32) (ix2 a (0 : Fin 1)) = argW m c (ix2 (FM.dcol a) (0 : Fin 1)) := by
  have e : ((cfg0.win 3).blk t).view.emb (ix2 a (0 : Fin 1)) = (ix2 a (0 : Fin 1) : S13x1.Idx) := by
    funext d
    apply Fin.ext
    match d with
    | ⟨0, _⟩ =>
      show win0_3.index t 0 * 13 + 1 * a.val = a.val
      rw [(blk_idx3 t).1]; omega
    | ⟨1, _⟩ =>
      show win0_3.index t 1 * 1 + 1 * 0 = 0
      rw [(blk_idx3 t).2]
  unfold Gen.iblk
  rw [View.read_apply]
  show V m c main_v0 (((cfg0.win 3).blk t).view.emb (ix2 a (0 : Fin 1))) = _
  rw [e, blk_V_v0]
  exact blk_dw_apply (argW m c) a

/-- The dense embedding columns, transposed. -/
theorem blk4_apply (t : Fin cfg0.N) (a : Fin 13) (k : Fin 64) :
    (iblk m c 4 t : FVec Ideal S13x64 .f32) (ix2 a k) = argV m c (ix2 k (FM.dcol a)) := by
  have e : ((cfg0.win 4).blk t).view.emb (ix2 a k) = (ix2 a k : S13x64.Idx) := by
    funext d
    apply Fin.ext
    match d with
    | ⟨0, _⟩ =>
      show win0_4.index t 0 * 13 + 1 * a.val = a.val
      rw [(blk_idx4 t).1]; omega
    | ⟨1, _⟩ =>
      show win0_4.index t 1 * 64 + 1 * k.val = k.val
      rw [(blk_idx4 t).2]; omega
  unfold Gen.iblk
  rw [View.read_apply]
  show V m c main_v5 (((cfg0.win 4).blk t).view.emb (ix2 a k)) = _
  rw [e, blk_V_v5]
  exact blk_dv_apply (argV m c) a k

end Cert.KernelIdeal.FMV

end
-- ==== Proof.Induct.lean ====
/-
  The three running sums, in closed form.  Within a batch tile the fields are visited in order; after field `f` the
  first-order scratch holds, for each row, the dense product plus the selected weights of fields `0 … f`, the embedding
  scratch the dense product plus the selected embedding columns, and the third the dense product of squares plus the
  squares of those columns.  An ordered sum of extended reals is the sum.  At a tile's last field the output block
  is the logit of its rows.
-/
import proofs.«402704_j29437705847531_3_alg».proof.Proof.Gen.KernelIdeal.Frame
import proofs.«402704_j29437705847531_3_alg».proof.Proof.Pieces
import proofs.«402704_j29437705847531_3_alg».proof.Proof.OneHot
import proofs.«402704_j29437705847531_3_alg».proof.Proof.Payloads
import proofs.«402704_j29437705847531_3_alg».proof.Proof.Blocks

set_option maxRecDepth 16384

noncomputable section

namespace Cert.KernelIdeal.FMV

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The five input blocks of a grid point, with their literal types. -/
abbrev b0 (t : Fin cfg0.N) : FVec Ideal S1024x13 .f32 := iblk m c 0 t
abbrev b1 (t : Fin cfg0.N) : IVec S1x1024x1 32 := iblk m c 1 t
abbrev b2 (t : Fin cfg0.N) : FVec Ideal S1x10000x65 .bf16 := iblk m c 2 t
abbrev b3 (t : Fin cfg0.N) : FVec Ideal S13x1 .f32 := iblk m c 3 t
abbrev b4 (t : Fin cfg0.N) : FVec Ideal S13x64 .f32 := iblk m c 4 t

/-! ## The recurrences, block by block -/

/-- Scratch 0 after a tile's first field: the dense product plus the first field's gathered entries. -/
theorem s0_A (t : Fin cfg0.N) (h0 : t.val % 26 = 0) (h1 : ¬t.val % 26 = 25) :
    ((outsAt0 m c t.val t.isLt).2.1 : FVec Ideal S1024x1 .f32) = k0_pay9 (F := Ideal) (lf (F := Ideal) (b1 m c t) (b2 m c t) k0_t1_loop.trips) (k0_pay3 (F := Ideal) (b0 m c t) (b3 m c t)) := by
  rw [outsAt0_A m c t h0 h1]; dsimp only
  exact sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (b0 m c t) (b1 m c t) (b2 m c t) (b3 m c t) (b4 m c t)

/-- Scratch 0 after a middle field: what the field before left plus this field's gathered entries. -/
theorem s0_B (t : Fin cfg0.N) (h0 : ¬t.val % 26 = 0) (h1 : ¬t.val % 26 = 25) :
    ((outsAt0 m c t.val t.isLt).2.1 : FVec Ideal S1024x1 .f32) = k0_pay9 (F := Ideal) (lf (F := Ideal) (b1 m c t) (b2 m c t) k0_t1_loop.trips) ((outsAt0 m c (t.val - 1) (Nat.lt_of_le_of_lt (Nat.sub_le _ _) t.isLt)).2.1 : FVec Ideal S1024x1 .f32) := by
  rw [outsAt0_B m c t h0 h1]; dsimp only
  exact sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (b0 m c t) (b1 m c t) (b2 m c t) (b3 m c t) (b4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Scratch 0 after a tile's last field: the same update. -/
theorem s0_C (t : Fin cfg0.N) (h0 : ¬t.val % 26 = 0) (h1 : t.val % 26 = 25) :
    ((outsAt0 m c t.val t.isLt).2.1 : FVec Ideal S1024x1 .f32) = k0_pay9 (F := Ideal) (lf (F := Ideal) (b1 m c t) (b2 m c t) k0_t1_loop.trips) ((outsAt0 m c (t.val - 1) (Nat.lt_of_le_of_lt (Nat.sub_le _ _) t.isLt)).2.1 : FVec Ideal S1024x1 .f32) := by
  rw [outsAt0_C m c t h0 h1]; dsimp only
  exact sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Scratch 1 after a tile's first field: the dense product plus the first field's gathered entries. -/
theorem s1_A (t : Fin cfg0.N) (h0 : t.val % 26 = 0) (h1 : ¬t.val % 26 = 25) :
    ((outsAt0 m c t.val t.isLt).2.2.1 : FVec Ideal S1024x64 .f32) = k0_pay10 (F := Ideal) (lf (F := Ideal) (b1 m c t) (b2 m c t) k0_t1_loop.trips) (k0_pay4 (F := Ideal) (b0 m c t) (b4 m c t)) := by
  rw [outsAt0_A m c t h0 h1]; dsimp only
  exact sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (b0 m c t) (b1 m c t) (b2 m c t) (b3 m c t) (b4 m c t)

/-- Scratch 1 after a middle field: what the field before left plus this field's gathered entries. -/
theorem s1_B (t : Fin cfg0.N) (h0 : ¬t.val % 26 = 0) (h1 : ¬t.val % 26 = 25) :
    ((outsAt0 m c t.val t.isLt).2.2.1 : FVec Ideal S1024x64 .f32) = k0_pay10 (F := Ideal) (lf (F := Ideal) (b1 m c t) (b2 m c t) k0_t1_loop.trips) ((outsAt0 m c (t.val - 1) (Nat.lt_of_le_of_lt (Nat.sub_le _ _) t.isLt)).2.2.1 : FVec Ideal S1024x64 .f32) := by
  rw [outsAt0_B m c t h0 h1]; dsimp only
  exact sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (b0 m c t) (b1 m c t) (b2 m c t) (b3 m c t) (b4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Scratch 1 after a tile's last field: the same update. -/
theorem s1_C (t : Fin cfg0.N) (h0 : ¬t.val % 26 = 0) (h1 : t.val % 26 = 25) :
    ((outsAt0 m c t.val t.isLt).2.2.1 : FVec Ideal S1024x64 .f32) = k0_pay10 (F := Ideal) (lf (F := Ideal) (b1 m c t) (b2 m c t) k0_t1_loop.trips) ((outsAt0 m c (t.val - 1) (Nat.lt_of_le_of_lt (Nat.sub_le _ _) t.isLt)).2.2.1 : FVec Ideal S1024x64 .f32) := by
  rw [outsAt0_C m c t h0 h1]; dsimp only
  exact sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Scratch 2 after a tile's first field: the dense product plus the first field's gathered entries. -/
theorem s2_A (t : Fin cfg0.N) (h0 : t.val % 26 = 0) (h1 : ¬t.val % 26 = 25) :
    ((outsAt0 m c t.val t.isLt).2.2.2 : FVec Ideal S1024x64 .f32) = k0_pay11 (F := Ideal) (lf (F := Ideal) (b1 m c t) (b2 m c t) k0_t1_loop.trips) (k0_pay5 (F := Ideal) (b0 m c t) (b4 m c t)) := by
  rw [outsAt0_A m c t h0 h1]; dsimp only
  exact sout_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (b0 m c t) (b1 m c t) (b2 m c t) (b3 m c t) (b4 m c t)

/-- Scratch 2 after a middle field: what the field before left plus this field's gathered entries. -/
theorem s2_B (t : Fin cfg0.N) (h0 : ¬t.val % 26 = 0) (h1 : ¬t.val % 26 = 25) :
    ((outsAt0 m c t.val t.isLt).2.2.2 : FVec Ideal S1024x64 .f32) = k0_pay11 (F := Ideal) (lf (F := Ideal) (b1 m c t) (b2 m c t) k0_t1_loop.trips) ((outsAt0 m c (t.val - 1) (Nat.lt_of_le_of_lt (Nat.sub_le _ _) t.isLt)).2.2.2 : FVec Ideal S1024x64 .f32) := by
  rw [outsAt0_B m c t h0 h1]; dsimp only
  exact sout_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (b0 m c t) (b1 m c t) (b2 m c t) (b3 m c t) (b4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- Scratch 2 after a tile's last field: the same update. -/
theorem s2_C (t : Fin cfg0.N) (h0 : ¬t.val % 26 = 0) (h1 : t.val % 26 = 25) :
    ((outsAt0 m c t.val t.isLt).2.2.2 : FVec Ideal S1024x64 .f32) = k0_pay11 (F := Ideal) (lf (F := Ideal) (b1 m c t) (b2 m c t) k0_t1_loop.trips) ((outsAt0 m c (t.val - 1) (Nat.lt_of_le_of_lt (Nat.sub_le _ _) t.isLt)).2.2.2 : FVec Ideal S1024x64 .f32) := by
  rw [outsAt0_C m c t h0 h1]; dsimp only
  exact sout_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-- The output block after a tile's last field: the output payload of the three updated sums. -/
theorem o5_C (t : Fin cfg0.N) (h0 : ¬t.val % 26 = 0) (h1 : t.val % 26 = 25) :
    ((outsAt0 m c t.val t.isLt).1 : FVec Ideal S1024x1 .f32)
      = k0_pay1 (F := Ideal) (k0_pay10 (F := Ideal) (lf (F := Ideal) (b1 m c t) (b2 m c t) k0_t1_loop.trips) ((outsAt0 m c (t.val - 1) (Nat.lt_of_le_of_lt (Nat.sub_le _ _) t.isLt)).2.2.1 : FVec Ideal S1024x64 .f32)) (k0_pay11 (F := Ideal) (lf (F := Ideal) (b1 m c t) (b2 m c t) k0_t1_loop.trips) ((outsAt0 m c (t.val - 1) (Nat.lt_of_le_of_lt (Nat.sub_le _ _) t.isLt)).2.2.2 : FVec Ideal S1024x64 .f32))
          (k0_pay9 (F := Ideal) (lf (F := Ideal) (b1 m c t) (b2 m c t) k0_t1_loop.trips) ((outsAt0 m c (t.val - 1) (Nat.lt_of_le_of_lt (Nat.sub_le _ _) t.isLt)).2.1 : FVec Ideal S1024x1 .f32)) := by
  rw [outsAt0_C m c t h0 h1]; dsimp only
  exact out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (b0 m c t) (b1 m c t) (b2 m c t) (b3 m c t) (b4 m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

/-! ## One point's terms, entry by entry -/

/-- A category in range, as a natural number, is below 10000. -/
theorem toNat_lt_of_range (x : BitVec 32) (h0 : 0 ≤ x.toInt) (h1 : x.toInt < 10000) : x.toNat < 10000 := by
  have e := BitVec.toInt_eq_toNat_cond x
  have := x.isLt
  split at e <;> omega

/-- What the one-hot products gather at a point: column `j < 64` is the selected embedding entry, column 64 the
    selected weight, of the point's field. -/
theorem gathered (hR : FM.InRange (argS m c)) (t : Fin cfg0.N) (r : Fin 1024) (j : Fin 65) :
    lf (F := Ideal) (b1 m c t) (b2 m c t) k0_t1_loop.trips (ix2 r j)
      = if h : j.val < 64 then FM.TV (argS m c) (argV m c) (FM.row (t.val / 26) r) (FM.fld t.val) (⟨j.val, h⟩ : Fin 64)
        else FM.Tw (argS m c) (argW m c) (FM.row (t.val / 26) r) (FM.fld t.val) := by
  have hs := hR (FM.row (t.val / 26) r) (FM.fld t.val)
  have e1 : b1 m c t (ix3 (0 : Fin 1) r (0 : Fin 1)) = argS m c (ix2 (FM.row (t.val / 26) r) (FM.fld t.val)) :=
    blk1_apply m c t r hs.1 hs.2
  have hn : (argS m c (ix2 (FM.row (t.val / 26) r) (FM.fld t.val))).toNat < 10000 := toNat_lt_of_range _ hs.1 hs.2
  rw [lf_apply (b1 m c t) (b2 m c t) r j (by rw [e1]; exact hs.1) (by rw [e1]; exact hs.2)]
  have hq : (⟨(b1 m c t (ix3 (0 : Fin 1) r (0 : Fin 1))).toNat % 10000, Nat.mod_lt _ (by decide)⟩ : Fin 10000)
      = ⟨(argS m c (ix2 (FM.row (t.val / 26) r) (FM.fld t.val))).toNat, hn⟩ :=
    Fin.ext (by show _ % 10000 = _; rw [e1]; exact Nat.mod_eq_of_lt hn)
  rw [hq]
  refine (blk2_apply m c t _ j).trans ?_
  unfold FM.TV FM.Tw
  rw [FM.col_eq_tcol _ _ hn]

/-- The three dense products of a point's rows. -/
theorem dense_w (t : Fin cfg0.N) (r : Fin 1024) :
    k0_pay3 (F := Ideal) (b0 m c t) (b3 m c t) (ix2 r (0 : Fin 1)) = FM.Dw (argD m c) (argW m c) (FM.row (t.val / 26) r) := by
  rw [pay3_apply]; unfold FM.Dw
  exact Finset.sum_congr rfl fun a _ => by
    rw [show b0 m c t (ix2 r a) = _ from blk0_apply m c t r a, show b3 m c t (ix2 a (0 : Fin 1)) = _ from blk3_apply m c t a]

theorem dense_v (t : Fin cfg0.N) (r : Fin 1024) (k : Fin 64) :
    k0_pay4 (F := Ideal) (b0 m c t) (b4 m c t) (ix2 r k) = FM.DV (argD m c) (argV m c) (FM.row (t.val / 26) r) k := by
  rw [pay4_apply]; unfold FM.DV
  exact Finset.sum_congr rfl fun a _ => by
    rw [show b0 m c t (ix2 r a) = _ from blk0_apply m c t r a, show b4 m c t (ix2 a k) = _ from blk4_apply m c t a k]

theorem dense_v2 (t : Fin cfg0.N) (r : Fin 1024) (k : Fin 64) :
    k0_pay5 (F := Ideal) (b0 m c t) (b4 m c t) (ix2 r k) = FM.DV2 (argD m c) (argV m c) (FM.row (t.val / 26) r) k := by
  rw [pay5_apply]; unfold FM.DV2
  exact Finset.sum_congr rfl fun a _ => by
    rw [show b0 m c t (ix2 r a) = _ from blk0_apply m c t r a, show b4 m c t (ix2 a k) = _ from blk4_apply m c t a k]

/-! ## The closed forms, by induction on the point -/

theorem TwN_mod (s : FM.SS.Idx → BitVec 32) (w : FM.SW.Idx → EReal) (b : Fin 16384) (n : ℕ) :
    FM.TwN s w b (n % 26) = FM.Tw s w b (FM.fld n) := by
  unfold FM.TwN FM.fld; rw [dif_pos (Nat.mod_lt _ (by decide))]

theorem TVN_mod (s : FM.SS.Idx → BitVec 32) (Vm : FM.SV.Idx → EReal) (b : Fin 16384) (k : Fin 64) (n : ℕ) :
    FM.TVN s Vm b k (n % 26) = FM.TV s Vm b (FM.fld n) k := by
  unfold FM.TVN FM.fld; rw [dif_pos (Nat.mod_lt _ (by decide))]

/-- Column 64 of the gathered row is the selected weight; column `k < 64` the selected embedding entry. -/
theorem gathered_w (hR : FM.InRange (argS m c)) (t : Fin cfg0.N) (r : Fin 1024) :
    lf (F := Ideal) (b1 m c t) (b2 m c t) k0_t1_loop.trips (ix2 r (⟨64, by decide⟩ : Fin 65))
      = FM.TwN (argS m c) (argW m c) (FM.row (t.val / 26) r) (t.val % 26) := by
  rw [gathered m c hR t r, dif_neg (by decide), TwN_mod]

theorem gathered_v (hR : FM.InRange (argS m c)) (t : Fin cfg0.N) (r : Fin 1024) (k : Fin 64) :
    lf (F := Ideal) (b1 m c t) (b2 m c t) k0_t1_loop.trips (ix2 r (⟨k.val, by have := k.isLt; omega⟩ : Fin 65))
      = FM.TVN (argS m c) (argV m c) (FM.row (t.val / 26) r) k (t.val % 26) := by
  rw [gathered m c hR t r, dif_pos k.isLt, TVN_mod]

/-! ### The first-order sum -/

theorem step0_A (hR : FM.InRange (argS m c)) (t : Fin cfg0.N) (h0 : t.val % 26 = 0) (h1 : ¬t.val % 26 = 25) (r : Fin 1024) :
    ((outsAt0 m c t.val t.isLt).2.1 : FVec Ideal S1024x1 .f32) (ix2 r (0 : Fin 1))
      = FM.Dw (argD m c) (argW m c) (FM.row (t.val / 26) r) + ∑ j ∈ Finset.range (t.val % 26 + 1), FM.TwN (argS m c) (argW m c) (FM.row (t.val / 26) r) j := by
  refine (congrFun (s0_A m c t h0 h1) (ix2 r (0 : Fin 1))).trans ?_
  rw [pay9_apply, dense_w, gathered_w m c hR t r, h0, Nat.zero_add, Finset.sum_range_one]

theorem step0_S (hR : FM.InRange (argS m c)) (t : Fin cfg0.N) (h0 : ¬t.val % 26 = 0) (r : Fin 1024)
    (hS : ((outsAt0 m c t.val t.isLt).2.1 : FVec Ideal S1024x1 .f32) = k0_pay9 (F := Ideal) (lf (F := Ideal) (b1 m c t) (b2 m c t) k0_t1_loop.trips) ((outsAt0 m c (t.val - 1) (Nat.lt_of_le_of_lt (Nat.sub_le _ _) t.isLt)).2.1 : FVec Ideal S1024x1 .f32))
    (hp : ((outsAt0 m c (t.val - 1) (Nat.lt_of_le_of_lt (Nat.sub_le _ _) t.isLt)).2.1 : FVec Ideal S1024x1 .f32) (ix2 r (0 : Fin 1))
      = FM.Dw (argD m c) (argW m c) (FM.row ((t.val - 1) / 26) r)
        + ∑ j ∈ Finset.range ((t.val - 1) % 26 + 1), FM.TwN (argS m c) (argW m c) (FM.row ((t.val - 1) / 26) r) j) :
    ((outsAt0 m c t.val t.isLt).2.1 : FVec Ideal S1024x1 .f32) (ix2 r (0 : Fin 1))
      = FM.Dw (argD m c) (argW m c) (FM.row (t.val / 26) r) + ∑ j ∈ Finset.range (t.val % 26 + 1), FM.TwN (argS m c) (argW m c) (FM.row (t.val / 26) r) j := by
  have e1 : (t.val - 1) / 26 = t.val / 26 := by omega
  have e2 : (t.val - 1) % 26 + 1 = t.val % 26 := by omega
  refine (congrFun hS (ix2 r (0 : Fin 1))).trans ?_
  rw [pay9_apply, hp, gathered_w m c hR t r, e1, e2, Finset.sum_range_succ, add_assoc]

theorem closed0 (hR : FM.InRange (argS m c)) : ∀ (n : ℕ) (hn : n < cfg0.N) (r : Fin 1024),
    ((outsAt0 m c n hn).2.1 : FVec Ideal S1024x1 .f32) (ix2 r (0 : Fin 1))
      = FM.Dw (argD m c) (argW m c) (FM.row (n / 26) r) + ∑ j ∈ Finset.range (n % 26 + 1), FM.TwN (argS m c) (argW m c) (FM.row (n / 26) r) j := by
  intro n
  induction n with
  | zero => intro hn r; exact step0_A m c hR ⟨0, hn⟩ rfl (show ¬(0 : ℕ) % 26 = 25 by decide) r
  | succ n ih =>
    intro hn r
    by_cases h0 : (n + 1) % 26 = 0
    · exact step0_A m c hR ⟨n + 1, hn⟩ h0 (show ¬(n + 1) % 26 = 25 by omega) r
    · have hp := ih (Nat.lt_of_succ_lt hn) r
      by_cases h1 : (n + 1) % 26 = 25
      · exact step0_S m c hR ⟨n + 1, hn⟩ h0 r (s0_C m c ⟨n + 1, hn⟩ h0 h1) hp
      · exact step0_S m c hR ⟨n + 1, hn⟩ h0 r (s0_B m c ⟨n + 1, hn⟩ h0 h1) hp

/-! ### The embedding sum -/

theorem step1_A (hR : FM.InRange (argS m c)) (t : Fin cfg0.N) (h0 : t.val % 26 = 0) (h1 : ¬t.val % 26 = 25) (r : Fin 1024) (k : Fin 64) :
    ((outsAt0 m c t.val t.isLt).2.2.1 : FVec Ideal S1024x64 .f32) (ix2 r k)
      = FM.DV (argD m c) (argV m c) (FM.row (t.val / 26) r) k + ∑ j ∈ Finset.range (t.val % 26 + 1), FM.TVN (argS m c) (argV m c) (FM.row (t.val / 26) r) k j := by
  refine (congrFun (s1_A m c t h0 h1) (ix2 r k)).trans ?_
  rw [pay10_apply, dense_v, gathered_v m c hR t r k, h0, Nat.zero_add, Finset.sum_range_one]

theorem step1_S (hR : FM.InRange (argS m c)) (t : Fin cfg0.N) (h0 : ¬t.val % 26 = 0) (r : Fin 1024) (k : Fin 64)
    (hS : ((outsAt0 m c t.val t.isLt).2.2.1 : FVec Ideal S1024x64 .f32) = k0_pay10 (F := Ideal) (lf (F := Ideal) (b1 m c t) (b2 m c t) k0_t1_loop.trips) ((outsAt0 m c (t.val - 1) (Nat.lt_of_le_of_lt (Nat.sub_le _ _) t.isLt)).2.2.1 : FVec Ideal S1024x64 .f32))
    (hp : ((outsAt0 m c (t.val - 1) (Nat.lt_of_le_of_lt (Nat.sub_le _ _) t.isLt)).2.2.1 : FVec Ideal S1024x64 .f32) (ix2 r k)
      = FM.DV (argD m c) (argV m c) (FM.row ((t.val - 1) / 26) r) k
        + ∑ j ∈ Finset.range ((t.val - 1) % 26 + 1), FM.TVN (argS m c) (argV m c) (FM.row ((t.val - 1) / 26) r) k j) :
    ((outsAt0 m c t.val t.isLt).2.2.1 : FVec Ideal S1024x64 .f32) (ix2 r k)
      = FM.DV (argD m c) (argV m c) (FM.row (t.val / 26) r) k + ∑ j ∈ Finset.range (t.val % 26 + 1), FM.TVN (argS m c) (argV m c) (FM.row (t.val / 26) r) k j := by
  have e1 : (t.val - 1) / 26 = t.val / 26 := by omega
  have e2 : (t.val - 1) % 26 + 1 = t.val % 26 := by omega
  refine (congrFun hS (ix2 r k)).trans ?_
  rw [pay10_apply, hp, gathered_v m c hR t r k, e1, e2, Finset.sum_range_succ, add_assoc]

theorem closed1 (hR : FM.InRange (argS m c)) : ∀ (n : ℕ) (hn : n < cfg0.N) (r : Fin 1024) (k : Fin 64),
    ((outsAt0 m c n hn).2.2.1 : FVec Ideal S1024x64 .f32) (ix2 r k)
      = FM.DV (argD m c) (argV m c) (FM.row (n / 26) r) k + ∑ j ∈ Finset.range (n % 26 + 1), FM.TVN (argS m c) (argV m c) (FM.row (n / 26) r) k j := by
  intro n
  induction n with
  | zero => intro hn r k; exact step1_A m c hR ⟨0, hn⟩ rfl (show ¬(0 : ℕ) % 26 = 25 by decide) r k
  | succ n ih =>
    intro hn r k
    by_cases h0 : (n + 1) % 26 = 0
    · exact step1_A m c hR ⟨n + 1, hn⟩ h0 (show ¬(n + 1) % 26 = 25 by omega) r k
    · have hp := ih (Nat.lt_of_succ_lt hn) r k
      by_cases h1 : (n + 1) % 26 = 25
      · exact step1_S m c hR ⟨n + 1, hn⟩ h0 r k (s1_C m c ⟨n + 1, hn⟩ h0 h1) hp
      · exact step1_S m c hR ⟨n + 1, hn⟩ h0 r k (s1_B m c ⟨n + 1, hn⟩ h0 h1) hp

/-! ### The sum of squares -/

theorem step2_A (hR : FM.InRange (argS m c)) (t : Fin cfg0.N) (h0 : t.val % 26 = 0) (h1 : ¬t.val % 26 = 25) (r : Fin 1024) (k : Fin 64) :
    ((outsAt0 m c t.val t.isLt).2.2.2 : FVec Ideal S1024x64 .f32) (ix2 r k)
      = FM.DV2 (argD m c) (argV m c) (FM.row (t.val / 26) r) k
        + ∑ j ∈ Finset.range (t.val % 26 + 1), FM.TVN (argS m c) (argV m c) (FM.row (t.val / 26) r) k j * FM.TVN (argS m c) (argV m c) (FM.row (t.val / 26) r) k j := by
  refine (congrFun (s2_A m c t h0 h1) (ix2 r k)).trans ?_
  rw [pay11_apply, dense_v2, gathered_v m c hR t r k, h0, Nat.zero_add, Finset.sum_range_one]

theorem step2_S (hR : FM.InRange (argS m c)) (t : Fin cfg0.N) (h0 : ¬t.val % 26 = 0) (r : Fin 1024) (k : Fin 64)
    (hS : ((outsAt0 m c t.val t.isLt).2.2.2 : FVec Ideal S1024x64 .f32) = k0_pay11 (F := Ideal) (lf (F := Ideal) (b1 m c t) (b2 m c t) k0_t1_loop.trips) ((outsAt0 m c (t.val - 1) (Nat.lt_of_le_of_lt (Nat.sub_le _ _) t.isLt)).2.2.2 : FVec Ideal S1024x64 .f32))
    (hp : ((outsAt0 m c (t.val - 1) (Nat.lt_of_le_of_lt (Nat.sub_le _ _) t.isLt)).2.2.2 : FVec Ideal S1024x64 .f32) (ix2 r k)
      = FM.DV2 (argD m c) (argV m c) (FM.row ((t.val - 1) / 26) r) k
        + ∑ j ∈ Finset.range ((t.val - 1) % 26 + 1),
            FM.TVN (argS m c) (argV m c) (FM.row ((t.val - 1) / 26) r) k j * FM.TVN (argS m c) (argV m c) (FM.row ((t.val - 1) / 26) r) k j) :
    ((outsAt0 m c t.val t.isLt).2.2.2 : FVec Ideal S1024x64 .f32) (ix2 r k)
      = FM.DV2 (argD m c) (argV m c) (FM.row (t.val / 26) r) k
        + ∑ j ∈ Finset.range (t.val % 26 + 1), FM.TVN (argS m c) (argV m c) (FM.row (t.val / 26) r) k j * FM.TVN (argS m c) (argV m c) (FM.row (t.val / 26) r) k j := by
  have e1 : (t.val - 1) / 26 = t.val / 26 := by omega
  have e2 : (t.val - 1) % 26 + 1 = t.val % 26 := by omega
  refine (congrFun hS (ix2 r k)).trans ?_
  rw [pay11_apply, hp, gathered_v m c hR t r k, e1, e2, Finset.sum_range_succ, add_assoc]

theorem closed2 (hR : FM.InRange (argS m c)) : ∀ (n : ℕ) (hn : n < cfg0.N) (r : Fin 1024) (k : Fin 64),
    ((outsAt0 m c n hn).2.2.2 : FVec Ideal S1024x64 .f32) (ix2 r k)
      = FM.DV2 (argD m c) (argV m c) (FM.row (n / 26) r) k
        + ∑ j ∈ Finset.range (n % 26 + 1), FM.TVN (argS m c) (argV m c) (FM.row (n / 26) r) k j * FM.TVN (argS m c) (argV m c) (FM.row (n / 26) r) k j := by
  intro n
  induction n with
  | zero => intro hn r k; exact step2_A m c hR ⟨0, hn⟩ rfl (show ¬(0 : ℕ) % 26 = 25 by decide) r k
  | succ n ih =>
    intro hn r k
    by_cases h0 : (n + 1) % 26 = 0
    · exact step2_A m c hR ⟨n + 1, hn⟩ h0 (show ¬(n + 1) % 26 = 25 by omega) r k
    · have hp := ih (Nat.lt_of_succ_lt hn) r k
      by_cases h1 : (n + 1) % 26 = 25
      · exact step2_S m c hR ⟨n + 1, hn⟩ h0 r k (s2_C m c ⟨n + 1, hn⟩ h0 h1) hp
      · exact step2_S m c hR ⟨n + 1, hn⟩ h0 r k (s2_B m c ⟨n + 1, hn⟩ h0 h1) hp

/-! ## The statements the other modules cite -/

/-- What the three scratch buffers hold after point `n`, row by row. -/
theorem scratch_closed (hR : FM.InRange (argS m c)) : ∀ (n : ℕ) (hn : n < cfg0.N),
    (∀ r : Fin 1024, ((outsAt0 m c n hn).2.1 : FVec Ideal S1024x1 .f32) (ix2 r (0 : Fin 1))
        = FM.Dw (argD m c) (argW m c) (FM.row (n / 26) r)
          + ∑ j ∈ Finset.range (n % 26 + 1), FM.TwN (argS m c) (argW m c) (FM.row (n / 26) r) j)
    ∧ (∀ (r : Fin 1024) (k : Fin 64), ((outsAt0 m c n hn).2.2.1 : FVec Ideal S1024x64 .f32) (ix2 r k)
        = FM.DV (argD m c) (argV m c) (FM.row (n / 26) r) k
          + ∑ j ∈ Finset.range (n % 26 + 1), FM.TVN (argS m c) (argV m c) (FM.row (n / 26) r) k j)
    ∧ (∀ (r : Fin 1024) (k : Fin 64), ((outsAt0 m c n hn).2.2.2 : FVec Ideal S1024x64 .f32) (ix2 r k)
        = FM.DV2 (argD m c) (argV m c) (FM.row (n / 26) r) k
          + ∑ j ∈ Finset.range (n % 26 + 1), FM.TVN (argS m c) (argV m c) (FM.row (n / 26) r) k j * FM.TVN (argS m c) (argV m c) (FM.row (n / 26) r) k j) :=
  fun n hn => ⟨closed0 m c hR n hn, closed1 m c hR n hn, closed2 m c hR n hn⟩

/-- At a tile's last field the output block holds the logits of the tile's rows. -/
theorem out_last (hR : FM.InRange (argS m c)) (t : Fin cfg0.N) (h25 : t.val % 26 = 25) (r : Fin 1024) :
    ((outsAt0 m c t.val t.isLt).1 : FVec Ideal S1024x1 .f32) (ix2 r (0 : Fin 1))
      = FM.logit (argD m c) (argS m c) (argW m c) (argV m c) (FM.row (t.val / 26) r) := by
  have h0 : ¬t.val % 26 = 0 := by omega
  refine (congrFun (o5_C m c t h0 h25) (ix2 r (0 : Fin 1))).trans ?_
  rw [← s1_C m c t h0 h25, ← s2_C m c t h0 h25, ← s0_C m c t h0 h25, pay1_apply, closed0 m c hR t.val t.isLt r]
  unfold FM.logit FM.first FM.vx FM.v2 FM.half
  rw [h25, FM.sum_TwN]
  congr 2
  refine Finset.sum_congr rfl fun k _ => ?_
  rw [closed1 m c hR t.val t.isLt r k, closed2 m c hR t.val t.isLt r k, h25, FM.sum_TVN, FM.sum_TVN_sq]

end Cert.KernelIdeal.FMV

end
-- ==== Proof.Final.lean ====
/-
  From the output blocks to the result.  The output window's block of batch tile `q` is written back once, after the
  tile's last field, and the sixteen blocks tile the [16384, 1] array, so the array ends at the logits; the host lines
  after the call add the bias and apply the logistic function.
-/
import proofs.«402704_j29437705847531_3_alg».proof.Proof.Gen.KernelIdeal.Frame
import proofs.«402704_j29437705847531_3_alg».proof.Proof.Induct
import Idealize.ShloMosaic.Lib.Pipeline.Value
import Idealize.ShloMosaic.Lib.StableHlo.Run

set_option maxRecDepth 16384

noncomputable section

namespace Cert.KernelIdeal.FMV

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The logits as one array: entry `(b, 0)` is sample `b`'s logit. -/
def logits (c : Dev nD) : FVec Ideal S16384x1 .f32 :=
  fun i => FM.logit (argD m c) (argS m c) (argW m c) (argV m c) (i 0)

/-- The output window's block index at grid point `t`: the batch tile `t / 26` on the rows, `0` on the one column. -/
theorem idx5 : ∀ t : Fin cfg0.N, win0_5.index t (0 : Fin 2) = t.val / 26 ∧ win0_5.index t (1 : Fin 2) = 0 :=
  (by decide +kernel : ∀ t : Fin grid0.N, win0_5.index t (0 : Fin 2) = t.val / 26 ∧ win0_5.index t (1 : Fin 2) = 0)

/-- What a tile's last point writes back is that tile's block of the logits. -/
theorem flushed_eq (c : Dev nD) (hR : FM.InRange (argS m c)) (t : Fin cfg0.N) (hf : (cfg0.win 5).flush t = true) :
    (dats m 0 c).flushed 5 t = ((cfg0.win 5).blk t).view.read (Elt Ideal) (logits m c) := by
  have h25 : t.val % 26 = 25 := (flush0_5 t).mp hf
  have hN : t.val < 416 := lt_of_lt_of_eq t.isLt (show cfg0.N = 416 from N_0)
  show (cfg0.win 5).cut (grid0.coords t) ((dats m 0 c).after 5 t) = _
  rw [after0_5]
  funext y
  obtain ⟨r, z, rfl⟩ : ∃ (r : Fin 1024) (z : Fin 1), y = ix2 r z := ⟨y 0, y 1, eq_ix2 (n0 := 1024) (n1 := 1) y⟩
  obtain rfl : z = 0 := Subsingleton.elim _ _
  show ((outsAt0 m c t.val t.isLt).1 : FVec Ideal S1024x1 .f32) (ix2 r (0 : Fin 1)) = _
  rw [out_last m c hR t h25 r, View.read_apply]
  show _ = logits m c (((cfg0.win 5).blk t).view.emb (ix2 r (0 : Fin 1)))
  unfold logits
  congr 1
  apply Fin.ext
  show (FM.row (t.val / 26) r).val = win0_5.index t (0 : Fin 2) * 1024 + 1 * r.val
  rw [FM.row_val _ _ (by omega), (idx5 t).1]
  omega

/-- The sixteen written-back blocks tile the array: it ends at the logits. -/
theorem final (c : Dev nD) (hR : FM.InRange (argS m c)) : (dats m 0 c).arrAt 5 cfg0.N = logits m c :=
  (dats m 0 c).arrAt_eq_of_cover 5 (logits m c) (fun t hf => flushed_eq m c hR t hf) fun i => by
    have hi0 : (i 0 : Nat) < 16384 := (i 0).isLt
    have hi1 : (i 1 : Nat) < 1 := (i 1).isLt
    have hlt : 26 * ((i 0 : Nat) / 1024) + 25 < cfg0.N := by rw [show cfg0.N = 416 from N_0]; omega
    obtain ⟨e0, e1⟩ := idx5 ⟨26 * ((i 0 : Nat) / 1024) + 25, hlt⟩
    refine ⟨⟨26 * ((i 0 : Nat) / 1024) + 25, hlt⟩, (flush0_5 _).mpr (by dsimp only; omega), ?_⟩
    show i ∈ ((View.whole main_v15).slice (win0_5.rect ⟨26 * ((i 0 : Nat) / 1024) + 25, hlt⟩)).set
    rw [View.set_slice_whole, Rect.mem_set_unit]
    intro a
    match a with
    | ⟨0, _⟩ =>
      show win0_5.index ⟨26 * ((i 0 : Nat) / 1024) + 25, hlt⟩ (0 : Fin 2) * 1024 ≤ (i 0 : Nat)
        ∧ (i 0 : Nat) < win0_5.index ⟨26 * ((i 0 : Nat) / 1024) + 25, hlt⟩ (0 : Fin 2) * 1024 + 1024
      rw [e0]; dsimp only; omega
    | ⟨1, _⟩ =>
      show win0_5.index ⟨26 * ((i 0 : Nat) / 1024) + 25, hlt⟩ (1 : Fin 2) * 1 ≤ (i 1 : Nat)
        ∧ (i 1 : Nat) < win0_5.index ⟨26 * ((i 0 : Nat) / 1024) + 25, hlt⟩ (1 : Fin 2) * 1 + 1
      rw [e1]; omega

/-- The bias, broadcast from one entry to a [1, 1] array and then along the batch, reads that one entry everywhere. -/
theorem bias_apply (b : FVec Ideal S1 .f32) (i : S16384x1.Idx) :
    broadcastInDim S16384x1 ![0, 1] bcast_S1x1_S16384x1_0_1 (broadcastInDim S1x1 ![1] bcast_S1_S1x1_1 b) i
      = b (ix1 (0 : Fin 1)) := by
  rw [broadcastInDim_apply _ _ _ i (ix2 (0 : Fin 1) (0 : Fin 1)) (fun a => by fin_cases a <;> rfl),
    broadcastInDim_apply _ _ _ _ (ix1 (0 : Fin 1)) (fun a => by fin_cases a; rfl)]

/-- A broadcast scalar constant reads the constant everywhere. -/
theorem cst_apply (w : BitVec 32) (i : S16384x1.Idx) :
    broadcastInDim S16384x1 ![] bcast_S_S16384x1 (constant (F := Ideal) S_ .f32 w) i = Ideal.ofBits .f32 w := rfl

/-- The host lines after the call, applied to the logits and the bias: the result. -/
theorem tail (c : Dev nD) (hR : FM.InRange (argS m c)) :
    Pipeline.afterTail₀ cfgs (dats m) 0 (V0 m) [hostOps1] c main_v24
      = FM.out (argD m c) (argS m c) (argB m c) (argW m c) (argV m c) := by
  unfold Pipeline.afterTail₀
  show StableHlo.after hostOps1 _ (Proc.devRef .tc main_v24) = _
  after_results
  have hA : Pipeline.withArrays (cfgs 0).spec c (V0 m c) (fun w => (dats m 0 c).arrAt w (cfgs 0).N)
      (Proc.devRef .tc main_v15) = logits m c :=
    (Pipeline.withArrays_arr spec0 launch0.win.arr_inj c _ _ 5).trans (final m c hR)
  have hB : Pipeline.withArrays (cfgs 0).spec c (V0 m c) (fun w => (dats m 0 c).arrAt w (cfgs 0).N)
      (Proc.devRef .tc main_arg2) = argB m c :=
    (Pipeline.withArrays_of_ne _ c (V0 m c) _ main_arg2
      (by exact (by decide : ∀ w, Pipeline.arrRef spec0 w ≠ main_arg2))).trans (V_main_arg2 m c)
  rw [hA, hB]
  funext i
  show Ideal.div (broadcastInDim S16384x1 ![] bcast_S_S16384x1 (constant (F := Ideal) S_ .f32 0x3F800000#32) i)
      (broadcastInDim S16384x1 ![] bcast_S_S16384x1 (constant (F := Ideal) S_ .f32 0x3F800000#32) i
        + Ideal.exp (-(logits m c i
          + broadcastInDim S16384x1 ![0, 1] bcast_S1x1_S16384x1_0_1 (broadcastInDim S1x1 ![1] bcast_S1_S1x1_1 (argB m c)) i)))
    = _
  rw [cst_apply, bias_apply]
  rfl

/-- Every weakly fair execution of the idealized kernel program ends with the result at the logistic function of
    the logit plus the bias, and the arguments unchanged. -/
theorem run (hR : ∀ c : Dev nD, FM.InRange (argS m c)) :
    θ_run defs (onTc (τ := τ) (main (F := Ideal))) ⟨m, fun _ => 0, ρ⟩ (fun r => ∀ c : Dev nD,
      r.2.mem ((c.tc : Thread nD τ).loc main_v24) = FM.out (argD m c) (argS m c) (argB m c) (argW m c) (argV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v24 (Pipeline.mem_restRefs_of main_v24 (by decide) (by decide))).trans (tail m c (hR c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.FMV

end
-- ==== Proof.PreDecode.lean ====
/-
  The precondition read back: besides the finiteness of the float inputs it says that every category lies in
  `0 … 9999`, as two "all" reductions of signed compares of the category array against 0 and against 10000.
-/
import proofs.«402704_j29437705847531_3_alg».proof.Defs
import proofs.«402704_j29437705847531_3_alg».proof.Proof.Gen.Pre_finite_inputs
import proofs.«402704_j29437705847531_3_alg».proof.Proof.Spec
import Idealize.ShloMosaic.Lib.ReduceAll
import Idealize.ShloMosaic.Lib.Affine
import Idealize.ShloMosaic.Lib.StableHlo.Predicate
import Idealize.ShloMosaic.Lib.ValueIdx

noncomputable section

namespace Cert.Proof.FMPre

open Idealize.ShloMosaic Idealize.ShloMosaic.ValueIdx Idealize.SL.Sem

/-- A scalar constant broadcast over the category array is that constant at every position. -/
theorem bcast_const (hb : (⟨0, ![]⟩ : Shape).BroadcastsInDim (⟨2, ![16384, 26]⟩ : Shape) ![]) (v : BitVec 32)
    (i : (⟨2, ![16384, 26]⟩ : Shape).Idx) :
    broadcastInDim (⟨2, ![16384, 26]⟩ : Shape) ![] hb (constantI (⟨0, ![]⟩ : Shape) 32 v) i = v := by
  rw [StableHlo.Predicate.bcast_scalar hb (by decide) _ i]
  rfl

/-- The tail of the precondition. It is a conjunction `((P ∧ A) ∧ B)` of one-bit words, where `A` is the "all" of
    `0 ≤ s` and `B` the "all" of `s < 10000` over the category array `s`, both compares signed. A conjunction of bits
    is 1 only if each bit is 1, and an "all" over the whole array is 1 only if its operand is 1 at every position; so
    at every position the category is at least 0 and below 10000. The conjunct `P` (finiteness) is never opened. -/
theorem tail_decode (a1 : IVec Cert.Pre_finite_inputs.S16384x26 32) (v13 : IVec Cert.Pre_finite_inputs.S_ 1)
    (v16 : IVec Cert.Pre_finite_inputs.S64x260013 1)
    (h : Cert.Pre_finite_inputs.fn_part1 (F := Ideal) a1 v13 v16 ix0 = 1#1) (i : Cert.Pre_finite_inputs.S16384x26.Idx) :
    0 ≤ (a1 i).toInt ∧ (a1 i).toInt < 10000 := by
  -- a rank-0 array has exactly one index, so each reduction is over every position
  haveI : Subsingleton Cert.Pre_finite_inputs.S_.Idx := ⟨fun a b => funext fun d => d.elim0⟩
  unfold Cert.Pre_finite_inputs.fn_part1 at h
  -- split the two outer conjunctions from the right
  obtain ⟨h22, h25⟩ := IntOp.andi_eq_one.1 h
  obtain ⟨_, h21⟩ := IntOp.andi_eq_one.1 h22
  -- each "all" gives its compare at position `i`
  have hge := Host.reduce_andi_all _ _ _ _ _ h21 i
  have hlt := Host.reduce_andi_all _ _ _ _ _ h25 i
  -- the compare of two arrays at `i` is the compare of their entries at `i`
  have hge' : IntOp.cmpi .sge (a1 i)
      (broadcastInDim Cert.Pre_finite_inputs.S16384x26 ![] Cert.Pre_finite_inputs.Facts.bcast_S_S16384x26
        (constantI Cert.Pre_finite_inputs.S_ 32 0#32) i) = 1#1 := hge
  have hlt' : IntOp.cmpi .slt (a1 i)
      (broadcastInDim Cert.Pre_finite_inputs.S16384x26 ![] Cert.Pre_finite_inputs.Facts.bcast_S_S16384x26
        (constantI Cert.Pre_finite_inputs.S_ 32 10000#32) i) = 1#1 := hlt
  rw [bcast_const] at hge' hlt'
  -- a signed compare that is 1 is the order of the signed values
  have h0 := IntOp.cmpi_sge.1 hge'
  have h1 := IntOp.cmpi_slt.1 hlt'
  have e0 : (0#32 : BitVec 32).toInt = 0 := by decide
  have e1 : (10000#32 : BitVec 32).toInt = 10000 := by decide
  rw [e0] at h0
  rw [e1] at h1
  exact ⟨h0, h1⟩

/-- Under the precondition every category of every sample is in range. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    FM.InRange (m ((c.tc : Thread Cert.KernelIdeal.nD Cert.KernelIdeal.τ).loc Cert.KernelIdeal.main_arg1)) := by
  intro b j
  -- the precondition's value is a rank-0 one-bit array equal to 1; read it at its one index
  have h1 := congrFun (h c) ix0
  -- the head of the chain (the finiteness conjuncts) only feeds the tail its first conjunct
  unfold Cert.Pre_finite_inputs.fn at h1
  exact tail_decode _ _ _ h1 (ix2 b j)

end Cert.Proof.FMPre

end
-- ==== Proof.RefValue.lean ====
/-
  The reference, read entry by entry.  It adds to each category its field's first column, gathers those columns of
  `w` and of `Vᵀ`, and sums over the fields; with every category in range the gathered column is the one the
  category selects, so the reference's result is the logistic function of the same logit plus the bias.
-/
import proofs.«402704_j29437705847531_3_alg».proof.Proof.Gen.ReferenceIdeal.Read
import proofs.«402704_j29437705847531_3_alg».proof.Proof.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.ReferenceIdeal.FMV

open Cert.ReferenceIdeal Cert.ReferenceIdeal.Gen
open Idealize.ShloMosaic Idealize.ShloMosaic.TcCoe Idealize.ShloMosaic.ValueIdx Idealize.SL.Sem
open Idealize.ShloMosaic.StableHlo.Predicate (toInt_eq_toNat_of_lt slt_iff_toNat)

/-! ## The two gathers and the concatenation, read at an index -/

/-- The dimension numbers of the gather of first-order weights. -/
abbrev gW := gather_S260013x1_S16384x26x2_S16384x26_n_01_n_n_01_2_11
/-- The dimension numbers of the gather of embedding rows. -/
abbrev gV := gather_S260013x64_S16384x26x1_S16384x26x64_2_0_n_n_0_2_164

/-- The weights' gather at sample `b` and field `j`: when the first component of the start index, read signed, is a
    row `n` of the table, the clamp into the table leaves it alone, and the second component is clamped to the only
    column there is; no axis is an offset axis, so the element read is row `n`, column `0`. -/
theorem gather_w_apply (x : FVec Ideal S260013x1 .f32) (idx : IVec S16384x26x2 32) (b : Fin 16384) (j : Fin 26)
    (n : Fin 260013) (h0 : (idx (ix3 b j (0 : Fin 2))).toInt = (n.val : Int)) :
    Host.gather gW x idx (ix2 b j) = x (ix2 n (0 : Fin 1)) := by
  unfold Host.gather
  congr 1
  funext a
  refine Fin.ext ?_
  match a with
  | ⟨0, _⟩ =>
    show gW.start (ix2 b j) idx 0 + gW.batchCoord (ix2 b j) 0 + gW.offCoord (ix2 b j) 0 = n.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gW.startIndexMap by decide)]
    have hsi : gW.siIdx (ix2 b j) ⟨List.idxOf (0 : Fin 2) gW.startIndexMap,
        List.idxOf_lt_length_iff.2 (by decide)⟩ = ix3 b j (0 : Fin 2) := by
      funext c; refine Fin.ext ?_
      match c with
      | ⟨0, _⟩ => rfl
      | ⟨1, _⟩ => rfl
      | ⟨2, _⟩ => rfl
    rw [hsi, h0]
    show min ((n.val : Int)).toNat (260013 - 1) = n.val
    have := n.isLt
    rw [Int.toNat_natCast]; omega
  | ⟨1, _⟩ =>
    show gW.start (ix2 b j) idx 1 + gW.batchCoord (ix2 b j) 1 + gW.offCoord (ix2 b j) 1 = 0
    rw [GatherDims.batchCoord_eq_zero _ _ _ List.not_mem_nil,
      GatherDims.offCoord_eq_zero _ _ _ (fun h => ((GatherDims.mem_sKept _ _).mp h).1 (by decide))]
    have h1 := gW.start_le (ix2 b j) idx 1
    have h2 : S260013x1.size 1 - gW.sliceSizes 1 = 0 := by decide
    omega

/-- The rows' gather at sample `b`, field `j` and coordinate `k`: the one start-index component, a row `n` of the
    table, survives the clamp, and the second operand axis is the offset axis, whose coordinate is `k`. -/
theorem gather_v_apply (x : FVec Ideal S260013x64 .f32) (idx : IVec S16384x26x1 32) (b : Fin 16384) (j : Fin 26) (k : Fin 64)
    (n : Fin 260013) (h0 : (idx (ix3 b j (0 : Fin 1))).toInt = (n.val : Int)) :
    Host.gather gV x idx (ix3 b j k) = x (ix2 n k) := by
  unfold Host.gather
  congr 1
  funext a
  refine Fin.ext ?_
  match a with
  | ⟨0, _⟩ =>
    show gV.start (ix3 b j k) idx 0 + gV.batchCoord (ix3 b j k) 0 + gV.offCoord (ix3 b j k) 0 = n.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gV.startIndexMap by decide)]
    have hsi : gV.siIdx (ix3 b j k) ⟨List.idxOf (0 : Fin 2) gV.startIndexMap,
        List.idxOf_lt_length_iff.2 (by decide)⟩ = ix3 b j (0 : Fin 1) := by
      funext c; refine Fin.ext ?_
      match c with
      | ⟨0, _⟩ => rfl
      | ⟨1, _⟩ => rfl
      | ⟨2, _⟩ => rfl
    rw [hsi, h0]
    show min ((n.val : Int)).toNat (260013 - 1) = n.val
    have := n.isLt
    rw [Int.toNat_natCast]; omega
  | ⟨1, _⟩ =>
    show gV.start (ix3 b j k) idx 1 + gV.batchCoord (ix3 b j k) 1 + gV.offCoord (ix3 b j k) 1 = k.val
    rw [GatherDims.batchCoord_eq_zero _ _ _ List.not_mem_nil]
    unfold GatherDims.start
    rw [dif_neg (show ¬ (1 : Fin 2) ∈ gV.startIndexMap by decide)]
    unfold GatherDims.offCoord
    rw [dif_pos (show (1 : Fin 2) ∈ gV.sKept by decide)]
    simp only [Nat.zero_add]
    rfl

/-- Coordinate `0` on the joined axis falls in the first piece (its extent there is one). -/
theorem concat_left {α : Type} (x₁ x₂ : S16384x26x1.Idx → α) (b : Fin 16384) (j : Fin 26) :
    concatenate S16384x26x2 2 [⟨S16384x26x1, x₁⟩, ⟨S16384x26x1, x₂⟩] concatenates_S16384x26x1_S16384x26x1_S16384x26x2_d2
      (ix3 b j (0 : Fin 2)) = x₁ (ix3 b j (0 : Fin 1)) :=
  concatenate_pair_apply_left (t := S16384x26x2) 2 x₁ x₂ _ _ rfl _ (fun c => by
    match c with
    | ⟨0, _⟩ => rfl
    | ⟨1, _⟩ => rfl
    | ⟨2, _⟩ => rfl)

/-- Coordinate `1` on the joined axis falls in the second piece, at its coordinate `0`. -/
theorem concat_right {α : Type} (x₁ x₂ : S16384x26x1.Idx → α) (b : Fin 16384) (j : Fin 26) :
    concatenate S16384x26x2 2 [⟨S16384x26x1, x₁⟩, ⟨S16384x26x1, x₂⟩] concatenates_S16384x26x1_S16384x26x1_S16384x26x2_d2
      (ix3 b j (1 : Fin 2)) = x₂ (ix3 b j (0 : Fin 1)) :=
  concatenate_pair_apply_right (t := S16384x26x2) 2 x₁ x₂ _ _ rfl rfl _ (fun c hc => by
    match c with
    | ⟨0, _⟩ => rfl
    | ⟨1, _⟩ => rfl
    | ⟨2, _⟩ => exact absurd rfl hc) rfl

/-! ## The integer chain: the global column of a category -/

/-- A word whose signed reading is a category reads the same unsigned. -/
theorem toNat_of_cat (s : BitVec 32) (h0 : 0 ≤ s.toInt) (h1 : s.toInt < 10000) : s.toNat < 10000 := by
  have h := BitVec.toInt_eq_toNat_cond s
  have := s.isLt
  split at h <;> omega

/-- Adding the field's first column to a category does not wrap: the sum is the selected column. -/
theorem col_word (s : BitVec 32) (j : Fin 26) (h0 : 0 ≤ s.toInt) (h1 : s.toInt < 10000) :
    (s + (13#32 + BitVec.ofNat 32 j.val * 10000#32)).toNat = (FM.col s j).val := by
  have hj := j.isLt
  have hs := toNat_of_cat s h0 h1
  show _ = (13 + 10000 * j.val + s.toNat) % 260013
  rw [Nat.mod_eq_of_lt (by omega)]
  simp only [BitVec.toNat_add, BitVec.toNat_mul, BitVec.toNat_ofNat]
  omega

/-- Wrapping a negative index around (adding the table's length when the index is below zero) is the identity on a
    nonnegative one. -/
theorem wrap_id (v : BitVec 32) (hv : v.toNat < 2 ^ 31) :
    Scalar.select (IntOp.cmpi .slt v 0#32) (IntOp.addi v 260013#32) v = v := by
  have hc : ¬ IntOp.cmpi .slt v 0#32 = 1#1 := fun h =>
    Nat.not_lt_zero _ ((slt_iff_toNat hv (by decide)).mp h)
  exact if_neg hc

/-! ## The reference's stages, read at an index -/

/-- The two coordinates of a rank-2 index, one at a time. -/
local macro "idx2" : tactic =>
  `(tactic| exact funext fun a => Fin.ext (by match a with | ⟨0, _⟩ => rfl | ⟨1, _⟩ => rfl))

/-- The three coordinates of a rank-3 index, one at a time. -/
local macro "idx3" : tactic =>
  `(tactic| exact funext fun a => Fin.ext (by match a with | ⟨0, _⟩ => rfl | ⟨1, _⟩ => rfl | ⟨2, _⟩ => rfl))

section
variable (x0 : FVec Ideal S16384x13 .f32) (x1 : IVec S16384x26 32) (x2 : FVec Ideal S1 .f32)
  (x3 : FVec Ideal S260013x1 .f32) (x4 : FVec Ideal S64x260013 .f32)

/-- The global column as a word: the category plus thirteen plus ten thousand times the field. -/
theorem v7_word (b : Fin 16384) (j : Fin 26) :
    Read.val_main_v7 (F := Ideal) x1 (ix2 b j) = x1 (ix2 b j) + (13#32 + BitVec.ofNat 32 j.val * 10000#32) := by
  rw [Read.val_main_v7_apply, Read.val_main_v6_apply, Read.val_main_v5_apply, Read.val_main_v4_apply,
    Read.val_main_v3_apply, Read.val_main_v2_apply, Read.val_main_v1_apply, Read.val_main_v0_apply,
    Read.val_main_c_apply, Read.val_main_c_0_apply]
  rfl

/-- With the category in range the word does not wrap: read unsigned it is the selected column. -/
theorem v7_toNat (hR : FM.InRange x1) (b : Fin 16384) (j : Fin 26) :
    (Read.val_main_v7 (F := Ideal) x1 (ix2 b j)).toNat = (FM.col (x1 (ix2 b j)) j).val := by
  rw [v7_word]; exact col_word _ _ (hR b j).1 (hR b j).2

/-- The column is below 2³¹, so the signed reading is the same number. -/
theorem v7_toInt (hR : FM.InRange x1) (b : Fin 16384) (j : Fin 26) :
    (Read.val_main_v7 (F := Ideal) x1 (ix2 b j)).toInt = ((FM.col (x1 (ix2 b j)) j).val : Int) := by
  have h := v7_toNat x1 hR b j
  have hlt := (FM.col (x1 (ix2 b j)) j).isLt
  rw [toInt_eq_toNat_of_lt (by omega), h]

/-- The column is not negative: the wrap-around leaves it alone (the copy feeding the weights' gather). -/
theorem v17_eq (hR : FM.InRange x1) (b : Fin 16384) (j : Fin 26) :
    Read.val_main_v17 (F := Ideal) x1 (ix2 b j) = Read.val_main_v7 (F := Ideal) x1 (ix2 b j) := by
  rw [Read.val_main_v17_apply, Read.val_main_v14_apply, Read.val_main_v16_apply, Read.val_main_v13_apply,
    Read.val_main_v15_apply, Read.val_main_c_1_apply, Read.val_main_c_2_apply]
  have h := v7_toNat x1 hR b j
  have hlt := (FM.col (x1 (ix2 b j)) j).isLt
  exact wrap_id _ (by omega)

/-- The same for the copy feeding the rows' gather. -/
theorem v32_eq (hR : FM.InRange x1) (b : Fin 16384) (j : Fin 26) :
    Read.val_main_v32 (F := Ideal) x1 (ix2 b j) = Read.val_main_v7 (F := Ideal) x1 (ix2 b j) := by
  rw [Read.val_main_v32_apply, Read.val_main_v29_apply, Read.val_main_v31_apply, Read.val_main_v28_apply,
    Read.val_main_v30_apply, Read.val_main_c_4_apply, Read.val_main_c_5_apply]
  have h := v7_toNat x1 hR b j
  have hlt := (FM.col (x1 (ix2 b j)) j).isLt
  exact wrap_id _ (by omega)

/-- The first component of the start index of the weights' gather is the global column. -/
theorem v22_zero (hR : FM.InRange x1) (b : Fin 16384) (j : Fin 26) :
    Read.val_main_v22 (F := Ideal) x1 (ix3 b j (0 : Fin 2)) = Read.val_main_v7 (F := Ideal) x1 (ix2 b j) := by
  unfold Read.val_main_v22
  rw [concat_left, Read.val_main_v20_apply,
    show Read.idx_main_v20 (ix3 b j (0 : Fin 1)) = ix2 b j from by idx2]
  exact v17_eq x1 hR b j

/-- The one component of the start index of the rows' gather is the global column. -/
theorem v33_eq (hR : FM.InRange x1) (b : Fin 16384) (j : Fin 26) :
    Read.val_main_v33 (F := Ideal) x1 (ix3 b j (0 : Fin 1)) = Read.val_main_v7 (F := Ideal) x1 (ix2 b j) := by
  rw [Read.val_main_v33_apply, show Read.idx_main_v33 (ix3 b j (0 : Fin 1)) = ix2 b j from by idx2]
  exact v32_eq x1 hR b j

/-- The gathered first-order weight is the one the category selects. -/
theorem v23_apply (hR : FM.InRange x1) (b : Fin 16384) (j : Fin 26) :
    Read.val_main_v23 (F := Ideal) x1 x3 (ix2 b j) = FM.Tw x1 x3 b j := by
  unfold Read.val_main_v23
  exact gather_w_apply x3 _ b j (FM.col (x1 (ix2 b j)) j) (by rw [v22_zero x1 hR, v7_toInt x1 hR])

/-- The gathered embedding coordinate is the one the category selects. -/
theorem v34_apply (hR : FM.InRange x1) (b : Fin 16384) (j : Fin 26) (k : Fin 64) :
    Read.val_main_v34 (F := Ideal) x1 x4 (ix3 b j k) = FM.TV x1 x4 b j k := by
  unfold Read.val_main_v34
  rw [gather_v_apply _ _ b j k (FM.col (x1 (ix2 b j)) j) (by rw [v33_eq x1 hR, v7_toInt x1 hR]),
    Read.val_main_v27_apply]
  unfold FM.TV
  exact congrArg x4 (by idx2)

/-- The first-order part: the bias and the dense features' product with the first thirteen weights, plus the sum
    over the fields of the selected weights. -/
theorem v26_apply (hR : FM.InRange x1) (b : Fin 16384) :
    Read.val_main_v26 (F := Ideal) x0 x1 x2 x3 (ix2 b (0 : Fin 1))
      = (x2 (ix1 (0 : Fin 1)) + FM.Dw x0 x3 b)
        + (Ideal.ofBits .f32 0x00000000#32 + ∑ j : Fin 26, FM.Tw x1 x3 b j) := by
  rw [Read.val_main_v26_apply, Read.val_main_v12_apply, Read.val_main_v11_apply, Read.val_main_v10_apply,
    Read.val_main_v9_apply, Read.val_main_v25_apply, Read.val_main_v24_apply, Read.val_main_cst_apply]
  simp only [Read.val_main_v8_apply, Ideal.addf_def, Ideal.ofBits_def]
  unfold FM.Dw
  congr 1
  · congr 1
    · exact congrArg x2 (funext fun a => Fin.ext (by match a with | ⟨0, _⟩ => rfl))
    · refine Finset.sum_congr rfl fun a _ => ?_
      congr 1
      · exact congrArg x0 (by idx2)
      · exact congrArg x3 (by idx2)
  · congr 1
    refine Finset.sum_congr rfl fun j _ => ?_
    rw [show Read.idx_main_v24 (Read.idx_main_v25 (ix2 b (0 : Fin 1))) j = ix2 b j from by idx2]
    exact v23_apply x1 x3 hR b j

/-- Coordinate `k` of the embedded sample: the dense part plus the sum over the fields of the selected rows. -/
theorem v38_apply (hR : FM.InRange x1) (b : Fin 16384) (k : Fin 64) :
    Read.val_main_v38 (F := Ideal) x0 x1 x4 (ix2 b k)
      = FM.DV x0 x4 b k + (Ideal.ofBits .f32 0x00000000#32 + ∑ j : Fin 26, FM.TV x1 x4 b j k) := by
  rw [Read.val_main_v38_apply, Read.val_main_v36_apply, Read.val_main_v37_apply, Read.val_main_cst_6_apply]
  simp only [Read.val_main_v35_apply, Read.val_main_v27_apply, Ideal.addf_def, Ideal.ofBits_def]
  unfold FM.DV
  congr 1
  · refine Finset.sum_congr rfl fun a _ => ?_
    congr 1
    · exact congrArg x0 (by idx2)
    · exact congrArg x4 (by idx2)
  · congr 1
    refine Finset.sum_congr rfl fun j _ => ?_
    rw [show Read.idx_main_v37 (ix2 b k) j = ix3 b j k from by idx3]
    exact v34_apply x1 x4 hR b j k

/-- The same with every term squared. -/
theorem v45_apply (hR : FM.InRange x1) (b : Fin 16384) (k : Fin 64) :
    Read.val_main_v45 (F := Ideal) x0 x1 x4 (ix2 b k)
      = FM.DV2 x0 x4 b k
        + (Ideal.ofBits .f32 0x00000000#32 + ∑ j : Fin 26, FM.TV x1 x4 b j k * FM.TV x1 x4 b j k) := by
  rw [Read.val_main_v45_apply, Read.val_main_v42_apply, Read.val_main_v44_apply, Read.val_main_cst_7_apply]
  simp only [Read.val_main_v39_apply, Read.val_main_v41_apply, Read.val_main_v40_apply, Read.val_main_v27_apply,
    Read.val_main_v43_apply, Ideal.addf_def, Ideal.mulf_def, Ideal.ofBits_def]
  unfold FM.DV2
  congr 1
  · refine Finset.sum_congr rfl fun a _ => ?_
    rw [show Read.lidx_main_v42 (ix2 b k) a = ix2 b a from by idx2,
      show Read.idx_main_v27 (Read.idx_main_v40 (Read.ridx_main_v42 (ix2 b k) a)) = ix2 k (FM.dcol a) from by idx2]
  · congr 1
    refine Finset.sum_congr rfl fun j _ => ?_
    rw [show Read.idx_main_v44 (ix2 b k) j = ix3 b j k from by idx3, v34_apply x1 x4 hR b j k]

/-- The logit plus the bias, in the order the reference adds it. -/
theorem v52_apply (hR : FM.InRange x1) (b : Fin 16384) :
    Read.val_main_v52 (F := Ideal) x0 x1 x2 x3 x4 (ix2 b (0 : Fin 1)) = FM.refz x0 x1 x2 x3 x4 b := by
  rw [Read.val_main_v52_apply, v26_apply x0 x1 x2 x3 hR b, Read.val_main_v51_apply, Read.val_main_v50_apply,
    Read.val_main_cst_9_apply, Read.val_main_v49_apply, Read.val_main_v48_apply, Read.val_main_cst_8_apply]
  simp only [Read.val_main_v47_apply, Read.val_main_v46_apply, Ideal.addf_def, Ideal.mulf_def, Ideal.subf_def,
    Ideal.ofBits_def]
  unfold FM.refz FM.half
  congr 1
  congr 1
  congr 1
  refine Finset.sum_congr rfl fun k _ => ?_
  rw [show Read.idx_main_v48 (Read.idx_main_v49 (ix2 b (0 : Fin 1))) k = ix2 b k from by idx2,
    v38_apply x0 x1 x4 hR b k, v45_apply x0 x1 x4 hR b k]

end

/-- The reference's result term is the specification's result. -/
theorem res_eq (m : (ℓ : Loc nD τ sig) → Buf (Elt Ideal) ℓ) (c : Dev nD)
    (hR : FM.InRange (m ((c.tc : Thread nD τ).loc main_arg1))) :
    (Cert.ReferenceIdeal.Value.res_out0 (F := Ideal) m c : FVec Ideal S16384x1 .f32)
      = FM.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show Cert.ReferenceIdeal.Value.res_main_v58 m c = _
  rw [Read.val_main_v58_eq]
  funext i
  obtain ⟨b, u, rfl⟩ : ∃ (b : Fin 16384) (u : Fin 1), i = ix2 b u := ⟨i 0, i 1, eq_ix2 i⟩
  obtain rfl : u = 0 := Subsingleton.elim _ _
  rw [Read.val_main_v58_apply, Read.val_main_v57_apply, Read.val_main_cst_11_apply, Read.val_main_v56_apply,
    Read.val_main_v55_apply, Read.val_main_cst_10_apply, Read.val_main_v54_apply, Read.val_main_v53_apply,
    v52_apply _ _ _ _ _ hR b, FM.refz_eq]
  rfl

end Cert.ReferenceIdeal.FMV

end
-- ==== Proof.lean ====
/-
  The kernel computes a factorization machine's prediction for 16384 samples, each with 13 dense features and 26
  categorical fields of 10000 categories: the logistic function of `x·w + 1/2 ∑ₖ ((x·Vₖ)² - x²·Vₖ²) + w₀` for the
  stacked feature vector `x`.  It gathers each field's selected row of a fused table by a one-hot matrix product,
  field by field, into three running sums; the reference gathers the same columns directly.  With every category in
  `0 … 9999` the kernel's clamp is the identity and both read the same columns, and over the extended reals the
  order of the additions does not matter, so the two results are equal entry by entry.
-/
import proofs.«402704_j29437705847531_3_alg».proof.Defs
import proofs.«402704_j29437705847531_3_alg».proof.Proof.Gen.Kernel
import proofs.«402704_j29437705847531_3_alg».proof.Proof.Gen.Kernel.Skeleton
import proofs.«402704_j29437705847531_3_alg».proof.Proof.Gen.Kernel.Loops
import proofs.«402704_j29437705847531_3_alg».proof.Proof.Gen.Kernel.Launch
import proofs.«402704_j29437705847531_3_alg».proof.Proof.Gen.Kernel.Points
import proofs.«402704_j29437705847531_3_alg».proof.Proof.Gen.Kernel.Frame
import proofs.«402704_j29437705847531_3_alg».proof.Proof.Gen.KernelIdeal
import proofs.«402704_j29437705847531_3_alg».proof.Proof.Gen.KernelIdeal.Skeleton
import proofs.«402704_j29437705847531_3_alg».proof.Proof.Gen.KernelIdeal.Loops
import proofs.«402704_j29437705847531_3_alg».proof.Proof.Gen.KernelIdeal.Launch
import proofs.«402704_j29437705847531_3_alg».proof.Proof.Gen.KernelIdeal.Points
import proofs.«402704_j29437705847531_3_alg».proof.Proof.Gen.KernelIdeal.Frame
import proofs.«402704_j29437705847531_3_alg».proof.Proof.Gen.ReferenceIdeal
import proofs.«402704_j29437705847531_3_alg».proof.Proof.Gen.Pre_finite_inputs
import proofs.«402704_j29437705847531_3_alg».proof.Proof.Gen.ReferenceIdeal.Run
import proofs.«402704_j29437705847531_3_alg».proof.Proof.Gen.ReferenceIdeal.Read
import proofs.«402704_j29437705847531_3_alg».proof.Proof.Spec
import proofs.«402704_j29437705847531_3_alg».proof.Proof.Final
import proofs.«402704_j29437705847531_3_alg».proof.Proof.PreDecode
import proofs.«402704_j29437705847531_3_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the specification's result of arguments that agree. -/
theorem algebraic : Cert.algebraic_KernelIdeal_ReferenceIdeal := by
  intro m ρ m' ρ' hpre hagree
  have hR := Cert.Proof.FMPre.inRange_of_pre m hpre
  refine ⟨_, Cert.KernelIdeal.FMV.run m ρ hR, ?_⟩
  refine (θ_run Cert.ReferenceIdeal.defs _ _).mono (fun _ h c => ⟨(h c).1.trans ?_, (h c).2⟩)
    (Cert.ReferenceIdeal.Value.run (F := Ideal) m' ρ')
  have hR' : FM.InRange (m' ((c.tc : Thread Cert.ReferenceIdeal.nD Cert.ReferenceIdeal.τ).loc Cert.ReferenceIdeal.main_arg1)) := by
    rw [(hagree c).2.1]; exact hR c
  refine (Cert.ReferenceIdeal.FMV.res_eq m' c hR').trans ?_
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
